-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32x32 : Shape := ⟨4, ![16, 2048, 32, 32]⟩
abbrev S256x2048 : Shape := ⟨2, ![256, 2048]⟩
abbrev S256 : Shape := ⟨1, ![256]⟩
abbrev S_ : Shape := ⟨0, ![]⟩

class Facts : Prop where
  bcast_S_S16x2048x32x32 : S_.BroadcastsInDim S16x2048x32x32 (![] : Fin 0 → Fin S16x2048x32x32.rank)
  reducesTo_S16x2048x32x32_S_d0_1_2_3 : S16x2048x32x32.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_cst_10 : FVec F S_ .f32 := constant S_ .f32 0x00000000#32
  let main_v29 : FVec F S256 .f32 := broadcastInDim S256 ![] bcast_S_S256 main_cst_10
  let main_v30 : IVec S256 1 := cmpf .oge main_arg5 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v28 main_v31
  main_v32

def fn {F : FTy → Type} [FloatOps F] (main_arg0 : FVec F S16x2048x32x32 .f32) (main_arg1 : FVec F S256x2048 .f32) (main_arg2 : FVec F S256 .f32) (main_arg3 : FVec F S256 .f32) (main_arg4 : FVec F S256 .f32) (main_arg5 : FVec F S256 .f32) : IVec S_ 1 :=
  let main_v0 : FVec F S16x2048x32x32 .f32 := Host.absf main_arg0
  let main_cst : FVec F S_ .f32 := constant S_ .f32 0x7F800000#32
  let main_v1 : FVec F S16x2048x32x32 .f32 := broadcastInDim S16x2048x32x32 ![] bcast_S_S16x2048x32x32 main_cst
  let main_v2 : IVec S16x2048x32x32 1 := cmpf .olt main_v0 main_v1
  let main_c : IVec S_ 1 := constantI S_ 1 1#1
  let main_v3 : IVec S_ 1 := (fun x v => Host.reduce IntOp.andi x v reducesTo_S16x2048x32x32_S_d0_1_2_3 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x2048x32x32 : Shape := ⟨4, ![16, 2048, 32, 32]⟩
abbrev S256x2048 : Shape := ⟨2, ![256, 2048]⟩
abbrev S256 : Shape := ⟨1, ![256]⟩
abbrev S_ : Shape := ⟨0, ![]⟩
abbrev S256x1 : Shape := ⟨2, ![256, 1]⟩
abbrev S16x2048x1024 : Shape := ⟨3, ![16, 2048, 1024]⟩
abbrev S16x256x1024 : Shape := ⟨3, ![16, 256, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S2048x128 : Shape := ⟨2, ![2048, 128]⟩
abbrev S256x128 : Shape := ⟨2, ![256, 128]⟩
abbrev S1x256x128 : Shape := ⟨3, ![1, 256, 128]⟩
abbrev S16x256x32x32 : Shape := ⟨4, ![16, 256, 32, 32]⟩

abbrev nBuf : Space → Nat
  | .hbm => 23
  | .vmem => 6
  | .smem => 0
  | _ => 0

abbrev bufTy : (tb : Table) → Fin (tcTables nBuf tb) → BufTy
  | .hbm, ⟨0, _⟩ => ⟨S16x2048x32x32, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S16x2048x1024, .f32⟩
  | .hbm, ⟨21, _⟩ => ⟨S16x256x1024, .f32⟩
  | .hbm, ⟨22, _⟩ => ⟨S16x256x32x32, .f32⟩
  | .local _ .vmem, ⟨0, _⟩ => ⟨S1x2048x1024, .f32⟩
  | .local _ .vmem, ⟨1, _⟩ => ⟨S1x2048x1024, .f32⟩
  | .local _ .vmem, ⟨2, _⟩ => ⟨S256x2048, .f32⟩
  | .local _ .vmem, ⟨3, _⟩ => ⟨S256x1, .f32⟩
  | .local _ .vmem, ⟨4, _⟩ => ⟨S1x256x1024, .f32⟩
  | .local _ .vmem, ⟨5, _⟩ => ⟨S1x256x1024, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  shapeCasts_S256_S256x1 : S256.ShapeCasts S256x1
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  shapeCasts_S16x2048x32x32_S16x2048x1024 : S16x2048x32x32.ShapeCasts S16x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S2048x1024_o0_0_S2048x128 : S2048x1024.Slices ![0, 0] S2048x128
  slices_S2048x1024_o0_128_S2048x128 : S2048x1024.Slices ![0, 128] S2048x128
  slices_S2048x1024_o0_256_S2048x128 : S2048x1024.Slices ![0, 256] S2048x128
  slices_S2048x1024_o0_384_S2048x128 : S2048x1024.Slices ![0, 384] S2048x128
  slices_S2048x1024_o0_512_S2048x128 : S2048x1024.Slices ![0, 512] S2048x128
  slices_S2048x1024_o0_640_S2048x128 : S2048x1024.Slices ![0, 640] S2048x128
  slices_S2048x1024_o0_768_S2048x128 : S2048x1024.Slices ![0, 768] S2048x128
  slices_S2048x1024_o0_896_S2048x128 : S2048x1024.Slices ![0, 896] S2048x128
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x128_S256 : S256x128.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S1x256x1024_S1x256x128_0_0_0 : ∀ a, (![0, 0, 0] : Fin 3 → Nat) a + S1x256x128.size a ≤ S1x256x1024.size a
  h_S1x256x128 : 0 < S1x256x128.numel
  shapeCasts_S1x256x128_S256x128 : S1x256x128.ShapeCasts S256x128
  shapeCasts_S256x128_S1x256x128 : S256x128.ShapeCasts S1x256x128
  inb_S1x256x1024_S1x256x128_0_0_128 : ∀ a, (![0, 0, 128] : Fin 3 → Nat) a + S1x256x128.size a ≤ S1x256x1024.size a
  inb_S1x256x1024_S1x256x128_0_0_256 : ∀ a, (![0, 0, 256] : Fin 3 → Nat) a + S1x256x128.size a ≤ S1x256x1024.size a
  inb_S1x256x1024_S1x256x128_0_0_384 : ∀ a, (![0, 0, 384] : Fin 3 → Nat) a + S1x256x128.size a ≤ S1x256x1024.size a
  inb_S1x256x1024_S1x256x128_0_0_512 : ∀ a, (![0, 0, 512] : Fin 3 → Nat) a + S1x256x128.size a ≤ S1x256x1024.size a
  inb_S1x256x1024_S1x256x128_0_0_640 : ∀ a, (![0, 0, 640] : Fin 3 → Nat) a + S1x256x128.size a ≤ S1x256x1024.size a
  inb_S1x256x1024_S1x256x128_0_0_768 : ∀ a, (![0, 0, 768] : Fin 3 → Nat) a + S1x256x128.size a ≤ S1x256x1024.size a
  inb_S1x256x1024_S1x256x128_0_0_896 : ∀ a, (![0, 0, 896] : Fin 3 → Nat) a + S1x256x128.size a ≤ S1x256x1024.size a
  shapeCasts_S16x256x1024_S16x256x32x32 : S16x256x1024.ShapeCasts S16x256x32x32
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x256x1024.size a
  hwx0_3 : ∀ i : grid0.Coords, EltTy.bits .f32 = 32 ∨ (Rect.block (s := S16x256x1024) S1x256x1024.size (cc0_transform_3 i) (hinb0_3 i)).WholeWords (EltTy.packing .f32)

variable [Facts₀]

def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v12) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x32x32 : Shape := ⟨4, ![16, 2048, 32, 32]⟩
abbrev S256x2048 : Shape := ⟨2, ![256, 2048]⟩
abbrev S256 : Shape := ⟨1, ![256]⟩
abbrev S_ : Shape := ⟨0, ![]⟩
abbrev S1x256 : Shape := ⟨2, ![1, 256]⟩
abbrev S256x1 : Shape := ⟨2, ![256, 1]⟩
abbrev S2048x256 : Shape := ⟨2, ![2048, 256]⟩
abbrev S16x2048x1024 : Shape := ⟨3, ![16, 2048, 1024]⟩
abbrev S16x1x256 : Shape := ⟨3, ![16, 1, 256]⟩
abbrev S1x512x1024 : Shape := ⟨3, ![1, 512, 1024]⟩
abbrev S512x256 : Shape := ⟨2, ![512, 256]⟩
abbrev S1x1x256 : Shape := ⟨3, ![1, 1, 256]⟩
abbrev S1x512 : Shape := ⟨2, ![1, 512]⟩
abbrev S16x256x1 : Shape := ⟨3, ![16, 256, 1]⟩
abbrev S16x256x1024 : Shape := ⟨3, ![16, 256, 1024]⟩
abbrev S1x256x1 : Shape := ⟨3, ![1, 256, 1]⟩
abbrev S1x256x1024 : Shape := ⟨3, ![1, 256, 1024]⟩
abbrev S1x256x128 : Shape := ⟨3, ![1, 256, 128]⟩
abbrev S16x256x32x32 : Shape := ⟨4, ![16, 256, 32, 32]⟩

abbrev nBuf : Space → Nat
  | .hbm => 26
  | .vmem => 12
  | .smem => 0
  | _ => 0

abbrev bufTy : (tb : Table) → Fin (tcTables nBuf tb) → BufTy
  | .hbm, ⟨0, _⟩ => ⟨S16x2048x32x32, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1x256, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S2048x256, .f32⟩
  | .hbm, ⟨21, _⟩ => ⟨S16x2048x1024, .f32⟩
  | .hbm, ⟨22, _⟩ => ⟨S16x1x256, .f32⟩
  | .hbm, ⟨23, _⟩ => ⟨S16x256x1, .f32⟩
  | .hbm, ⟨24, _⟩ => ⟨S16x256x1024, .f32⟩
  | .hbm, ⟨25, _⟩ => ⟨S16x256x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x1x256, .f32⟩
  | .local _ .vmem, ⟨6, _⟩ => ⟨S1x1x256, .f32⟩
  | .local _ .vmem, ⟨7, _⟩ => ⟨S1x256, .f32⟩
  | .local _ .vmem, ⟨8, _⟩ => ⟨S1x256x1, .f32⟩
  | .local _ .vmem, ⟨9, _⟩ => ⟨S1x256x1, .f32⟩
  | .local _ .vmem, ⟨10, _⟩ => ⟨S1x256x1024, .f32⟩
  | .local _ .vmem, ⟨11, _⟩ => ⟨S1x256x1024, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S_S256 : S_.BroadcastsInDim S256 (![] : Fin 0 → Fin S256.rank)
  shapeCasts_S256_S1x256 : S256.ShapeCasts S1x256
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  bcast_S_S256x2048 : S_.BroadcastsInDim S256x2048 (![] : Fin 0 → Fin S256x2048.rank)
  transposes_S256x2048_S2048x256_1_0 : S256x2048.Transposes [1, 0] S2048x256
  shapeCasts_S16x2048x32x32_S16x2048x1024 : S16x2048x32x32.ShapeCasts S16x2048x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x1024_S1x512 : S1x512x1024.Reduces [2] S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S16x1x256_S16x256x1 : S16x1x256.ShapeCasts S16x256x1
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x128 : S1x256x1.Broadcasts S1x256x128
  inb_S1x256x1024_S1x256x128_0_0_0 : ∀ a, (![0, 0, 0] : Fin 3 → Nat) a + S1x256x128.size a ≤ S1x256x1024.size a
  h_S1x256x128 : 0 < S1x256x128.numel
  inb_S1x256x1024_S1x256x128_0_0_128 : ∀ a, (![0, 0, 128] : Fin 3 → Nat) a + S1x256x128.size a ≤ S1x256x1024.size a
  inb_S1x256x1024_S1x256x128_0_0_256 : ∀ a, (![0, 0, 256] : Fin 3 → Nat) a + S1x256x128.size a ≤ S1x256x1024.size a
  inb_S1x256x1024_S1x256x128_0_0_384 : ∀ a, (![0, 0, 384] : Fin 3 → Nat) a + S1x256x128.size a ≤ S1x256x1024.size a
  inb_S1x256x1024_S1x256x128_0_0_512 : ∀ a, (![0, 0, 512] : Fin 3 → Nat) a + S1x256x128.size a ≤ S1x256x1024.size a
  inb_S1x256x1024_S1x256x128_0_0_640 : ∀ a, (![0, 0, 640] : Fin 3 → Nat) a + S1x256x128.size a ≤ S1x256x1024.size a
  inb_S1x256x1024_S1x256x128_0_0_768 : ∀ a, (![0, 0, 768] : Fin 3 → Nat) a + S1x256x128.size a ≤ S1x256x1024.size a
  inb_S1x256x1024_S1x256x128_0_0_896 : ∀ a, (![0, 0, 896] : Fin 3 → Nat) a + S1x256x128.size a ≤ S1x256x1024.size a
  shapeCasts_S16x256x1024_S16x256x32x32 : S16x256x1024.ShapeCasts S16x256x32x32
  dot_S1x512_S512x256_S1x256_1_0_0_1_n_n_wf : DotDims.WF S1x512 S512x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S16x1x256.size a
  hwx0_3 : ∀ i : grid0.Coords, EltTy.bits .f32 = 32 ∨ (Rect.block (s := S16x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S16x256x1.size a
  hwx1_0 : ∀ i : grid1.Coords, EltTy.bits .f32 = 32 ∨ (Rect.block (s := S16x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S16x256x1024.size a
  hwx1_1 : ∀ i : grid1.Coords, EltTy.bits .f32 = 32 ∨ (Rect.block (s := S16x256x1024) S1x256x1024.size (cc1_transform_1 i) (hinb1_1 i)).WholeWords (EltTy.packing .f32)

variable [Facts₀]

def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf

abbrev win0_0 : Pipeline.Window sig grid0 :=
  Pipeline.Window.ofSpec (Memref.whole main_v13) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x256x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.Spec.lean ====
/-
  The mathematics both programs compute, with no program imported.

  Per batch entry `b` and output channel `o` the result is `max (S + shift o) 0`, broadcast over the 32 × 32 positions,
  where `S` is the channel-weighted sum of the spatial totals of `x`:  S = ∑ c, W o c · ∑ p, x b c p,  with the folded
  weight  W o c = conv_w o c · scale o · 2⁻¹⁰  and  scale = γ / √(σ² + ε),  shift = β − μ · scale.

  The fused program forms `S` lane by lane: it first folds the 1024 positions of a channel onto 128 lanes by seven additions
  (`foldLanes`), multiplies by the weights lane-wise, and only then adds the 128 lanes (`Kform`).  The two-stage program adds
  the 1024 positions of a channel first, and accumulates the weighted totals over four tiles of 512 channels, starting
  from zero (`Rform`).  On the extended reals the two agree when every weight and every entry of `x` is a real number
  (distributivity fails at the infinities); `Kform_eq_Rform` is that statement, `KOut_eq_ROut` its use.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The argument and result shapes, spelled once. -/
abbrev Sx : Shape := ⟨4, ![16, 2048, 32, 32]⟩
abbrev Sw : Shape := ⟨2, ![256, 2048]⟩
abbrev Sv : Shape := ⟨1, ![256]⟩
abbrev So : Shape := ⟨4, ![16, 256, 32, 32]⟩
abbrev Ss : Shape := ⟨0, ![]⟩

/-- Position `128 · i + l`: lane `l` of the `i`-th 128-wide chunk of the 1024 flattened positions. -/
def lane (i : Fin 8) (l : Fin 128) : Fin 1024 := ⟨128 * i.val + l.val, by omega⟩
/-- Channel `512 · k + c`: channel `c` of the `k`-th tile of 512 input channels. -/
def chan (k : Fin 4) (c : Fin 512) : Fin 2048 := ⟨512 * k.val + c.val, by omega⟩
/-- The flattened position `32 · h + w` of a row-major 32 × 32 plane, as its two coordinates. -/
def posH (p : Fin 1024) : Fin 32 := ⟨p.val / 32, by omega⟩
def posW (p : Fin 1024) : Fin 32 := ⟨p.val % 32, by omega⟩

/-- One channel's 1024 positions folded onto lane `l`: the eight chunks added left to right. -/
def foldLanes (x : Fin 1024 → EReal) (l : Fin 128) : EReal :=
  ((((((x (lane 0 l) + x (lane 1 l)) + x (lane 2 l)) + x (lane 3 l)) + x (lane 4 l)) + x (lane 5 l)) + x (lane 6 l)) + x (lane 7 l)

/-- The fused program's sum: weights times lane-folded channels, contracted over the channels per lane, the lanes added last. -/
def Kform (w : Fin 2048 → EReal) (x : Fin 2048 → Fin 1024 → EReal) : EReal :=
  ∑ l : Fin 128, ∑ c : Fin 2048, w c * foldLanes (x c) l

/-- One tile's contribution in the two-stage program: each channel's spatial total times its weight, over the tile. -/
def tileDot (w : Fin 2048 → EReal) (x : Fin 2048 → Fin 1024 → EReal) (k : Fin 4) : EReal :=
  ∑ c : Fin 512, (∑ p : Fin 1024, x (chan k c) p) * w (chan k c)

/-- The two-stage program's sum: the accumulator starts at zero and takes the four tiles in order. -/
def Rform (w : Fin 2048 → EReal) (x : Fin 2048 → Fin 1024 → EReal) : EReal :=
  (((0 + tileDot w x 0) + tileDot w x 1) + tileDot w x 2) + tileDot w x 3

/-! ## Real sums under the coercion, and the two re-indexings -/

/-- The coercion of the reals into the extended reals commutes with finite sums. -/
theorem coe_finsum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A pair (lane, chunk) is a position, and every position is exactly one such pair. -/
def laneEquiv : Fin 128 × Fin 8 ≃ Fin 1024 where
  toFun q := lane q.2 q.1
  invFun p := (⟨p.val % 128, by omega⟩, ⟨p.val / 128, by omega⟩)
  left_inv q := by
    rcases q with ⟨l, i⟩
    apply Prod.ext <;> apply Fin.ext <;> simp only [lane] <;> omega
  right_inv p := by
    apply Fin.ext; simp only [lane]; omega

/-- A pair (tile, channel within the tile) is a channel, and every channel is exactly one such pair. -/
def chanEquiv : Fin 4 × Fin 512 ≃ Fin 2048 where
  toFun q := chan q.1 q.2
  invFun c := (⟨c.val / 512, by omega⟩, ⟨c.val % 512, by omega⟩)
  left_inv q := by
    rcases q with ⟨k, c⟩
    apply Prod.ext <;> apply Fin.ext <;> simp only [chan] <;> omega
  right_inv c := by
    apply Fin.ext; simp only [chan]; omega

/-- Summing lane by lane, each lane over its eight chunks, is summing over the 1024 positions. -/
theorem sum_lanes (f : Fin 1024 → ℝ) : ∑ l : Fin 128, ∑ i : Fin 8, f (lane i l) = ∑ p, f p :=
  (Fintype.sum_prod_type' (fun (l : Fin 128) (i : Fin 8) => f (lane i l))).symm.trans
    (Fintype.sum_equiv laneEquiv _ _ (fun _ => rfl))

/-- Summing tile by tile, each tile over its 512 channels, is summing over the 2048 channels. -/
theorem sum_chans (g : Fin 2048 → ℝ) : ∑ k : Fin 4, ∑ c : Fin 512, g (chan k c) = ∑ c, g c :=
  (Fintype.sum_prod_type' (fun (k : Fin 4) (c : Fin 512) => g (chan k c))).symm.trans
    (Fintype.sum_equiv chanEquiv _ _ (fun _ => rfl))

/-- The fused order of summation, on real data: lanes outermost, the eight chunks innermost. -/
theorem Kreal (w : Fin 2048 → ℝ) (x : Fin 2048 → Fin 1024 → ℝ) :
    ∑ l : Fin 128, ∑ c : Fin 2048, w c *
        (((((((x c (lane 0 l) + x c (lane 1 l)) + x c (lane 2 l)) + x c (lane 3 l)) + x c (lane 4 l)) + x c (lane 5 l))
          + x c (lane 6 l)) + x c (lane 7 l))
      = ∑ c, w c * ∑ p, x c p := by
  rw [Finset.sum_comm]
  refine Finset.sum_congr rfl (fun c _ => ?_)
  rw [← Finset.mul_sum, ← sum_lanes (x c)]
  refine congrArg _ (Finset.sum_congr rfl (fun l _ => ?_))
  rw [Fin.sum_univ_eight]

/-- The two-stage order of summation, on real data: four tiles added to zero in order. -/
theorem Rreal (w : Fin 2048 → ℝ) (x : Fin 2048 → Fin 1024 → ℝ) :
    (((0 + ∑ c : Fin 512, (∑ p, x (chan 0 c) p) * w (chan 0 c)) + ∑ c : Fin 512, (∑ p, x (chan 1 c) p) * w (chan 1 c))
        + ∑ c : Fin 512, (∑ p, x (chan 2 c) p) * w (chan 2 c)) + ∑ c : Fin 512, (∑ p, x (chan 3 c) p) * w (chan 3 c)
      = ∑ c, w c * ∑ p, x c p := by
  have h : ∀ k : Fin 4, (∑ c : Fin 512, (∑ p, x (chan k c) p) * w (chan k c))
      = ∑ c : Fin 512, w (chan k c) * ∑ p, x (chan k c) p :=
    fun k => Finset.sum_congr rfl (fun c _ => mul_comm _ _)
  rw [h 0, h 1, h 2, h 3, zero_add, ← sum_chans (fun c => w c * ∑ p, x c p), Fin.sum_univ_four]

/-- The two sums agree on real data: both are `∑ c, w c · ∑ p, x c p`. -/
theorem Kform_eq_Rform (w : Fin 2048 → EReal) (x : Fin 2048 → Fin 1024 → EReal)
    (hw : ∀ c, ∃ r : ℝ, w c = (r : EReal)) (hx : ∀ c p, ∃ r : ℝ, x c p = (r : EReal)) :
    Kform w x = Rform w x := by
  choose wr hwr using hw
  choose xr hxr using hx
  have hK : Kform w x = ((∑ c, wr c * ∑ p, xr c p : ℝ) : EReal) := by
    rw [← Kreal wr xr]
    simp only [Kform, foldLanes, hwr, hxr, coe_finsum, EReal.coe_mul, EReal.coe_add]
  have hR : Rform w x = ((∑ c, wr c * ∑ p, xr c p : ℝ) : EReal) := by
    rw [← Rreal wr xr]
    simp only [Rform, tileDot, hwr, hxr, coe_finsum, EReal.coe_mul, EReal.coe_add, EReal.coe_zero]
  rw [hK, hR]

/-! ## The folded weight and shift, as both programs' host lines compute them -/

/-- `scale = γ / √(σ² + ε)`, with `ε` the single-precision word both programs carry. -/
def scaleV (hb : Ss.BroadcastsInDim Sv (![] : Fin 0 → Fin Sv.rank)) (γ σ2 : FVec Ideal Sv .f32) : FVec Ideal Sv .f32 :=
  Host.divf γ (Host.sqrt (addf σ2 (broadcastInDim Sv ![] hb (constant (F := Ideal) Ss .f32 0x3727C5AC#32))))

/-- `shift = β − μ · scale`. -/
def shiftV (β μ s : FVec Ideal Sv .f32) : FVec Ideal Sv .f32 := subf β (mulf μ s)

/-- The word `0x3727C5AC` denotes a positive real number (about `10⁻⁵`). -/
theorem eps_pos : ∃ e : ℝ, Ideal.ofBits .f32 0x3727C5AC#32 = (e : EReal) ∧ 0 < e := by
  have h : Ideal.ofBits .f32 0x3727C5AC#32 = ((10995116 * (2 : ℝ) ^ (-40 : ℤ) : ℝ) : EReal) := by
    simp [Ideal.ofBits, Ideal.ieee, -EReal.coe_mul]
  exact ⟨_, h, by positivity⟩

/-- The word `0x3A800000` denotes a real number (`2⁻¹⁰`). -/
theorem pow_real : ∃ e : ℝ, Ideal.ofBits .f32 0x3A800000#32 = (e : EReal) := by
  have h : Ideal.ofBits .f32 0x3A800000#32 = (((2 : ℝ) ^ (-10 : ℤ) : ℝ) : EReal) := by
    simp [Ideal.ofBits, Ideal.ieee, -EReal.coe_mul]
    norm_num
  exact ⟨_, h⟩

/-- With a real `γ` and a real non-negative `σ²` the scale is a real number: `σ² + ε > 0`, so neither the square root nor
    the quotient leaves the reals. -/
theorem scaleV_real (hb : Ss.BroadcastsInDim Sv (![] : Fin 0 → Fin Sv.rank)) (γ σ2 : FVec Ideal Sv .f32)
    (hγ : ∀ i, ∃ r : ℝ, γ i = (r : EReal)) (hσ : ∀ i, ∃ r : ℝ, σ2 i = (r : EReal) ∧ 0 ≤ r) :
    ∀ i, ∃ r : ℝ, scaleV hb γ σ2 i = (r : EReal) := by
  intro i
  obtain ⟨g, hg⟩ := hγ i
  obtain ⟨r, hr, hr0⟩ := hσ i
  obtain ⟨e, he, he0⟩ := eps_pos
  have hpos : 0 < r + e := by linarith
  have hs : 0 < Real.sqrt (r + e) := Real.sqrt_pos.mpr hpos
  have hval : scaleV hb γ σ2 i = Ideal.div (γ i) (Ideal.sqrt (σ2 i + Ideal.ofBits .f32 0x3727C5AC#32)) := rfl
  refine ⟨g * (1 / Real.sqrt (r + e)), ?_⟩
  rw [hval, hg, hr, he, ← EReal.coe_add, Ideal.sqrt_coe, if_neg (not_lt.mpr hpos.le), Ideal.div_coe hs.ne', ← EReal.coe_mul]

/-- The fused program's weight: `conv_w · (scale · 2⁻¹⁰)`. -/
def wK (Wc : Sw.Idx → EReal) (s : Sv.Idx → EReal) (o : Fin 256) (c : Fin 2048) : EReal :=
  Wc (ix2 o c) * (s (ix1 o) * Ideal.ofBits .f32 0x3A800000#32)
/-- The two-stage program's weight: `(conv_w · scale) · 2⁻¹⁰`. -/
def wR (Wc : Sw.Idx → EReal) (s : Sv.Idx → EReal) (o : Fin 256) (c : Fin 2048) : EReal :=
  (Wc (ix2 o c) * s (ix1 o)) * Ideal.ofBits .f32 0x3A800000#32
/-- `x` with its 32 × 32 plane flattened row-major. -/
def xf (X : Sx.Idx → EReal) (b : Fin 16) (c : Fin 2048) (p : Fin 1024) : EReal := X (ix4 b c (posH p) (posW p))

/-- The fused program's value at batch entry `b`, channel `o` (the same at every position). -/
def KVal (X : Sx.Idx → EReal) (Wc : Sw.Idx → EReal) (s sh : Sv.Idx → EReal) (b : Fin 16) (o : Fin 256) : EReal :=
  max (Kform (wK Wc s o) (xf X b) + sh (ix1 o)) 0
/-- The two-stage program's. -/
def RVal (X : Sx.Idx → EReal) (Wc : Sw.Idx → EReal) (s sh : Sv.Idx → EReal) (b : Fin 16) (o : Fin 256) : EReal :=
  max (Rform (wR Wc s o) (xf X b) + sh (ix1 o)) 0

/-- The fused program's result array. -/
def KOut (X : Sx.Idx → EReal) (Wc : Sw.Idx → EReal) (s sh : Sv.Idx → EReal) : So.Idx → EReal :=
  fun j => KVal X Wc s sh (j 0) (j 1)
/-- The two-stage program's result array. -/
def ROut (X : Sx.Idx → EReal) (Wc : Sw.Idx → EReal) (s sh : Sv.Idx → EReal) : So.Idx → EReal :=
  fun j => RVal X Wc s sh (j 0) (j 1)

/-- On real `x`, real `conv_w` and a real scale the two result arrays are one: the weights agree by associativity, the
    sums by `Kform_eq_Rform`; the shift is the same term on both sides and may be anything. -/
theorem KOut_eq_ROut (X : Sx.Idx → EReal) (Wc : Sw.Idx → EReal) (s sh : Sv.Idx → EReal)
    (hX : ∀ i, ∃ r : ℝ, X i = (r : EReal)) (hW : ∀ i, ∃ r : ℝ, Wc i = (r : EReal)) (hs : ∀ i, ∃ r : ℝ, s i = (r : EReal)) :
    KOut X Wc s sh = ROut X Wc s sh := by
  funext j
  have hwKR : wK Wc s (j 1) = wR Wc s (j 1) := by
    funext c
    exact (mul_assoc _ _ _).symm
  have hw : ∀ c, ∃ r : ℝ, wR Wc s (j 1) c = (r : EReal) := by
    intro c
    obtain ⟨a, ha⟩ := hW (ix2 (j 1) c)
    obtain ⟨b, hb⟩ := hs (ix1 (j 1))
    obtain ⟨e, he⟩ := pow_real
    refine ⟨a * b * e, ?_⟩
    simp only [wR, ha, hb, he, EReal.coe_mul]
  have hx : ∀ c p, ∃ r : ℝ, xf X (j 0) c p = (r : EReal) := fun c p => hX _
  show max (Kform (wK Wc s (j 1)) (xf X (j 0)) + sh (ix1 (j 1))) 0 = max (Rform (wR Wc s (j 1)) (xf X (j 0)) + sh (ix1 (j 1))) 0
  rw [hwKR, Kform_eq_Rform _ _ hw hx]

end Cert.Pool

end
-- ==== Proof.PreFacts.lean ====
/-
  What the precondition says of the argument arrays at the extended reals: every entry of `x`, `conv_w` and `γ` is a
  real number, and every entry of `σ²` is a real number that is not negative.  (The precondition also bounds `β` and
  `μ`; the proof never needs it: they enter only through the shift, which is the same term in both programs.)
  Each conjunct of the printed predicate is an all-reduction of a lane-wise comparison; `|v| < +∞` at an extended real
  `v` says `v` is neither infinity, and `v ≥ 0` is read directly.
-/
import proofs.«151444_g2000404444116002_pallasbulk_979_2_alg».proof.Pre_finite_inputs
import proofs.«151444_g2000404444116002_pallasbulk_979_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pool

open Idealize.ShloMosaic

/-- The rank-0 shape has one index. -/
instance : Subsingleton Cert.Pre_finite_inputs.S_.Idx := ⟨fun a b => funext fun d => d.elim0⟩

/-- A strict comparison that came out 1 holds. -/
theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

/-- A weak comparison `x ≥ y` that came out 1 holds. -/
theorem le_of_cmp_oge {x y : EReal} (h : Ideal.cmp .oge x y = 1#1) : y ≤ x := by
  by_contra hn
  have h0 : Ideal.cmp .oge x y = 0#1 := by
    show BitVec.ofBool (decide (y ≤ x)) = 0#1
    rw [decide_eq_false hn]; rfl
  rw [h0] at h
  exact absurd h (by decide)

/-- The word `0x7F800000` denotes `+∞`. -/
theorem ofBits_inf : Ideal.ofBits .f32 0x7F800000#32 = ⊤ := by
  simp [Ideal.ofBits, Ideal.ieee]

/-- `|v| < +∞` at an extended real `v` says `v` is a real number. -/
theorem real_of_abs_lt_inf (v : EReal)
    (h : Ideal.cmp .olt (max v (-v)) (Ideal.ofBits .f32 0x7F800000#32) = 1#1) : ∃ r : ℝ, v = (r : EReal) := by
  have h' : max v (-v) < ⊤ := by
    have := lt_of_cmp_olt h
    rwa [ofBits_inf] at this
  rw [max_lt_iff] at h'
  induction v using EReal.rec with
  | bot => exact absurd h'.2 (by simp)
  | coe r => exact ⟨r, rfl⟩
  | top => exact absurd h'.1 (by simp)

/-- One conjunct of the predicate, read back: an all-reduction of `|a| < +∞` that came out 1 makes every entry real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ValueIdx.ix0 = 1#1) :
    ∀ i, ∃ r : ℝ, a i = (r : EReal) := by
  intro i
  exact real_of_abs_lt_inf (a i) (Host.reduce_andi_all _ _ hr hu ValueIdx.ix0 e i)

theorem real_of_pre
    (a0 : FVec Ideal Cert.Pre_finite_inputs.S16x2048x32x32 .f32) (a1 : FVec Ideal Cert.Pre_finite_inputs.S256x2048 .f32)
    (a2 a3 a4 a5 : FVec Ideal Cert.Pre_finite_inputs.S256 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a5 i = (r : EReal) ∧ 0 ≤ r) := by
  have h0 := congrFun h ValueIdx.ix0
  dsimp only [Cert.Pre_finite_inputs.fn, Cert.Pre_finite_inputs.fn_part1] at h0
  obtain ⟨h0, e5ge⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have r5 := real_of_all a5 _ _ _ e5
  refine ⟨real_of_all a0 _ _ _ e0, real_of_all a1 _ _ _ e1, real_of_all a2 _ _ _ e2, fun i => ?_⟩
  obtain ⟨r, hr⟩ := r5 i
  refine ⟨r, hr, ?_⟩
  have hge := Host.reduce_andi_all _ _ _ _ ValueIdx.ix0 e5ge i
  have hle : Ideal.ofBits .f32 0x00000000#32 ≤ a5 i := le_of_cmp_oge hge
  rw [Ideal.ofBits_zero_f32, hr] at hle
  exact_mod_cast hle

end Cert.Pool

end
-- ==== Proof.KPay.lean ====
/-
  The tile the fused program's body stores, read at an index.

  From the three loaded blocks — the batch entry's channels by positions `x0`, the folded weights `x1`, the shift column
  `x2` — the body forms: the positions folded onto 128 lanes by seven additions; the product of the weights with the
  folded channels, accumulated from zero; the sum of its 128 lanes; the shift added; the clamp below at zero; and that
  column spread over the 128 lanes of a tile.  Read at row `o` and any lane, the tile is
  `max (Kform (row o of x1) (x0's channels) + x2 o) 0`, the specification's value.  Each of the eight stored pieces is
  that tile with a leading unit axis.
-/
import proofs.«151444_g2000404444116002_pallasbulk_979_2_alg».proof.Proof.Gen.KernelIdeal.Skeleton
import proofs.«151444_g2000404444116002_pallasbulk_979_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-! ## The product's operand indices, axis by axis -/

theorem lhs_row (j : S256x128.Idx) (k : (dot_S256x2048_S2048x128_S256x128_1_0_0_1_n_n).contr.Idx) :
    ((dot_S256x2048_S2048x128_S256x128_1_0_0_1_n_n).lhsIdx j k (0 : Fin S256x2048.rank)).val = (j (0 : Fin S256x128.rank)).val := by
  unfold DotDims.lhsIdx
  rw [dif_neg (show ¬(0 : Fin S256x2048.rank) ∈ (dot_S256x2048_S2048x128_S256x128_1_0_0_1_n_n).lhsBatch by decide),
    dif_pos (show (0 : Fin S256x2048.rank) ∈ (dot_S256x2048_S2048x128_S256x128_1_0_0_1_n_n).lhsNonContracting by decide)]
  rfl

theorem lhs_contr (j : S256x128.Idx) (k : (dot_S256x2048_S2048x128_S256x128_1_0_0_1_n_n).contr.Idx) :
    ((dot_S256x2048_S2048x128_S256x128_1_0_0_1_n_n).lhsIdx j k (1 : Fin S256x2048.rank)).val = (k ⟨0, by decide⟩).val :=
  (dot_S256x2048_S2048x128_S256x128_1_0_0_1_n_n).lhsIdx_val_of_single rfl j k

theorem rhs_contr (j : S256x128.Idx) (k : (dot_S256x2048_S2048x128_S256x128_1_0_0_1_n_n).contr.Idx) :
    ((dot_S256x2048_S2048x128_S256x128_1_0_0_1_n_n).rhsIdx j k (0 : Fin S2048x128.rank)).val = (k ⟨0, by decide⟩).val :=
  (dot_S256x2048_S2048x128_S256x128_1_0_0_1_n_n).rhsIdx_val_of_single rfl j k

theorem rhs_col (j : S256x128.Idx) (k : (dot_S256x2048_S2048x128_S256x128_1_0_0_1_n_n).contr.Idx) :
    ((dot_S256x2048_S2048x128_S256x128_1_0_0_1_n_n).rhsIdx j k (1 : Fin S2048x128.rank)).val = (j (1 : Fin S256x128.rank)).val := by
  unfold DotDims.rhsIdx
  rw [dif_neg (show ¬(1 : Fin S2048x128.rank) ∈ (dot_S256x2048_S2048x128_S256x128_1_0_0_1_n_n).rhsBatch by decide),
    dif_pos (show (1 : Fin S2048x128.rank) ∈ (dot_S256x2048_S2048x128_S256x128_1_0_0_1_n_n).rhsNonContracting by decide)]
  rfl

/-- The product into the zero accumulator at row `o`, lane `l`: the sum over the 2048 channels. -/
theorem matmul_at (A : FVec Ideal S256x2048 .f32) (B : FVec Ideal S2048x128 .f32) (o : Fin 256) (l : Fin 128) :
    matmul (F := Ideal) dot_S256x2048_S2048x128_S256x128_1_0_0_1_n_n none A B (constant (F := Ideal) S256x128 .f32 0x00000000#32) (ix2 o l)
      = ∑ ch : Fin 2048, A (ix2 o ch) * B (ix2 ch l) := by
  show FloatOps.matmul dot_S256x2048_S2048x128_S256x128_1_0_0_1_n_n none A B (constant (F := Ideal) S256x128 .f32 0x00000000#32) (ix2 o l) = _
  rw [Ideal.matmul_constant_zero_apply, ← Equiv.sum_comp (contrEquiv1 dot_S256x2048_S2048x128_S256x128_1_0_0_1_n_n 2048 rfl rfl).symm]
  refine Finset.sum_congr rfl fun ch _ => ?_
  have hk := contrEquiv1_symm_val dot_S256x2048_S2048x128_S256x128_1_0_0_1_n_n 2048 rfl rfl ch
  have l2 : (dot_S256x2048_S2048x128_S256x128_1_0_0_1_n_n).lhsIdx (ix2 o l) ((contrEquiv1 dot_S256x2048_S2048x128_S256x128_1_0_0_1_n_n 2048 rfl rfl).symm ch) = ix2 o ch := by
    funext ax; apply Fin.ext
    match ax with
    | ⟨0, _⟩ => exact lhs_row _ _
    | ⟨1, _⟩ => exact (lhs_contr _ _).trans hk
  have r2 : (dot_S256x2048_S2048x128_S256x128_1_0_0_1_n_n).rhsIdx (ix2 o l) ((contrEquiv1 dot_S256x2048_S2048x128_S256x128_1_0_0_1_n_n 2048 rfl rfl).symm ch) = ix2 ch l := by
    funext ax; apply Fin.ext
    match ax with
    | ⟨0, _⟩ => exact (rhs_contr _ _).trans hk
    | ⟨1, _⟩ => exact rhs_col _ _
  rw [l2, r2]

/-- The sum over the 128 lanes at row `o`. -/
theorem lanesum_at (src : FVec Ideal S256x128 .f32) (o : Fin 256) :
    multiReduction (F := Ideal) .add [1] S256 src 0x00000000#32 reduces_S256x128_S256 (.inl rfl) rfl (ix1 o)
      = ∑ l : Fin 128, src (ix2 o l) := by
  refine (Ideal.multiReduction_add_single src 0x00000000#32 reduces_S256x128_S256 (.inl rfl) rfl (ix1 o)).trans ?_
  show ∑ l : Fin 128, src (reduces_S256x128_S256.lift (ix1 o) l) = _
  refine Finset.sum_congr rfl fun l _ => congrArg src ?_
  funext a; apply Fin.ext
  match a with
  | ⟨0, _⟩ => rfl
  | ⟨1, _⟩ => rfl

/-- A column read as a 256 × 1 matrix. -/
theorem col_at (v : FVec Ideal S256 .f32) (o : Fin 256) (u : Fin 1) :
    shapeCast S256x1 v shapeCasts_S256_S256x1 (ix2 o u) = v (ix1 o) :=
  shapeCast_apply v shapeCasts_S256_S256x1 (ix2 o u) (ix1 o) (by
    rw [Shape.rowMajor_val_one, Shape.rowMajor_val_two]
    show o.val = o.val * 1 + u.val
    omega)

/-- A 256 × 1 matrix spread over 128 lanes reads its column everywhere. -/
theorem spread_at (v : FVec Ideal S256x1 .f32) (o : Fin 256) (l : Fin 128) :
    broadcastTo S256x128 v broadcasts_S256x1_S256x128 (ix2 o l) = v (ix2 o (0 : Fin 1)) :=
  broadcastTo_apply v broadcasts_S256x1_S256x128 (ix2 o l) (ix2 o (0 : Fin 1)) (fun a => by
    match a with
    | ⟨0, _⟩ => rfl
    | ⟨1, _⟩ => rfl)

/-- The `i`-th 128-wide chunk of the positions, read at channel `ch`, lane `l`. -/
theorem chunk_at (X : FVec Ideal S2048x1024 .f32) (off : Nat) (h : S2048x1024.Slices ![0, off] S2048x128) (i : Fin 8)
    (hoff : off = 128 * i.val) (ch : Fin 2048) (l : Fin 128) :
    extractStridedSlice S2048x128 ![0, off] X h (ix2 ch l) = X (ix2 ch (Cert.Pool.lane i l)) :=
  slice2_axis1_apply off X h ch l (Cert.Pool.lane i l) (by subst hoff; rfl)

/-! ## The body's stages -/

section Stages
variable (x0 : Vec Ideal S1x2048x1024 .f32) (x1 : Vec Ideal S256x2048 .f32) (x2 : Vec Ideal S256x1 .f32)

/-- The loaded block as a channels × positions matrix. -/
def flat : FVec Ideal S2048x1024 .f32 := shapeCast S2048x1024 x0 shapeCasts_S1x2048x1024_S2048x1024

theorem flat_at (ch : Fin 2048) (p : Fin 1024) : flat x0 (ix2 ch p) = x0 (ix3 (0 : Fin 1) ch p) :=
  shapeCast_1ab_ab_apply x0 shapeCasts_S1x2048x1024_S2048x1024 ch p

/-- The positions folded onto 128 lanes: the eight chunks added left to right. -/
def folded : FVec Ideal S2048x128 .f32 :=
  addf (addf (addf (addf (addf (addf (addf
    (extractStridedSlice S2048x128 ![0, 0] (flat x0) slices_S2048x1024_o0_0_S2048x128)
    (extractStridedSlice S2048x128 ![0, 128] (flat x0) slices_S2048x1024_o0_128_S2048x128))
    (extractStridedSlice S2048x128 ![0, 256] (flat x0) slices_S2048x1024_o0_256_S2048x128))
    (extractStridedSlice S2048x128 ![0, 384] (flat x0) slices_S2048x1024_o0_384_S2048x128))
    (extractStridedSlice S2048x128 ![0, 512] (flat x0) slices_S2048x1024_o0_512_S2048x128))
    (extractStridedSlice S2048x128 ![0, 640] (flat x0) slices_S2048x1024_o0_640_S2048x128))
    (extractStridedSlice S2048x128 ![0, 768] (flat x0) slices_S2048x1024_o0_768_S2048x128))
    (extractStridedSlice S2048x128 ![0, 896] (flat x0) slices_S2048x1024_o0_896_S2048x128)

theorem folded_at (ch : Fin 2048) (l : Fin 128) :
    folded x0 (ix2 ch l) = Cert.Pool.foldLanes (fun p => x0 (ix3 (0 : Fin 1) ch p)) l := by
  unfold folded Cert.Pool.foldLanes
  simp only [addf_apply]
  rw [chunk_at (flat x0) 0 slices_S2048x1024_o0_0_S2048x128 0 rfl,
    chunk_at (flat x0) 128 slices_S2048x1024_o0_128_S2048x128 1 rfl,
    chunk_at (flat x0) 256 slices_S2048x1024_o0_256_S2048x128 2 rfl,
    chunk_at (flat x0) 384 slices_S2048x1024_o0_384_S2048x128 3 rfl,
    chunk_at (flat x0) 512 slices_S2048x1024_o0_512_S2048x128 4 rfl,
    chunk_at (flat x0) 640 slices_S2048x1024_o0_640_S2048x128 5 rfl,
    chunk_at (flat x0) 768 slices_S2048x1024_o0_768_S2048x128 6 rfl,
    chunk_at (flat x0) 896 slices_S2048x1024_o0_896_S2048x128 7 rfl]
  simp only [flat_at]

/-- The weights times the folded channels, from the zero accumulator. -/
def prod : FVec Ideal S256x128 .f32 :=
  matmul (F := Ideal) (φ₁ := .f32) (φ₂ := .f32) dot_S256x2048_S2048x128_S256x128_1_0_0_1_n_n none
    (shapeCast S256x2048 x1 shapeCasts_S256x2048_S256x2048) (folded x0) (constant (F := Ideal) S256x128 .f32 0x00000000#32)

theorem prod_at (o : Fin 256) (l : Fin 128) :
    prod x0 x1 (ix2 o l) = ∑ ch : Fin 2048, x1 (ix2 o ch) * Cert.Pool.foldLanes (fun p => x0 (ix3 (0 : Fin 1) ch p)) l := by
  unfold prod
  rw [shapeCast_self]
  refine (matmul_at x1 (folded x0) o l).trans ?_
  exact Finset.sum_congr rfl fun ch _ => congrArg (x1 (ix2 o ch) * ·) (folded_at x0 ch l)

/-- The lanes added. -/
def lanesum : FVec Ideal S256 .f32 :=
  multiReduction (F := Ideal) .add [1] S256 (prod x0 x1) 0x00000000#32 reduces_S256x128_S256 (.inl rfl) rfl

/-- The shift added and the result clamped below at zero, as a column. -/
def clamped : FVec Ideal S256x1 .f32 :=
  maximumf (addf (shapeCast S256x1 (lanesum x0 x1) shapeCasts_S256_S256x1) (shapeCast S256x1 x2 shapeCasts_S256x1_S256x1))
    (broadcast S256x1 (Scalar.ofBits (F := Ideal) .f32 0x00000000#32))

/-- The column spread over the 128 lanes: the tile every store writes. -/
def tile : FVec Ideal S256x128 .f32 :=
  broadcastTo S256x128 (shapeCast S256x1 (clamped x0 x1 x2) shapeCasts_S256x1_S256x1) broadcasts_S256x1_S256x128

/-- The skeleton's payload is that tile. -/
theorem pay6_eq : k0_pay6 (F := Ideal) x0 x1 x2 = tile x0 x1 x2 := rfl

/-- The tile's value at row `o`: the specification's sum of the block, the shift added, clamped. -/
def tileVal (o : Fin 256) : EReal :=
  max (Cert.Pool.Kform (fun ch => x1 (ix2 o ch)) (fun ch p => x0 (ix3 (0 : Fin 1) ch p)) + x2 (ix2 o (0 : Fin 1))) 0

theorem tile_at (o : Fin 256) (l : Fin 128) : tile x0 x1 x2 (ix2 o l) = tileVal x0 x1 x2 o := by
  unfold tile
  refine (spread_at _ o l).trans ?_
  rw [shapeCast_self]
  unfold clamped
  rw [shapeCast_self]
  show max (shapeCast S256x1 (lanesum x0 x1) shapeCasts_S256_S256x1 (ix2 o (0 : Fin 1)) + x2 (ix2 o (0 : Fin 1)))
      (Ideal.ofBits .f32 0x00000000#32) = _
  rw [Ideal.ofBits_zero_f32, col_at]
  unfold lanesum
  rw [lanesum_at]
  unfold tileVal Cert.Pool.Kform
  exact congrArg (fun s => max (s + x2 (ix2 o (0 : Fin 1))) 0) (Finset.sum_congr rfl fun l' _ => prod_at x0 x1 o l')

/-- Each stored piece is the tile under a leading unit axis. -/
theorem piece_at (v : FVec Ideal S256x128 .f32) (u : Fin 1) (o : Fin 256) (l : Fin 128) :
    shapeCast S1x256x128 v shapeCasts_S256x128_S1x256x128 (ix3 u o l) = v (ix2 o l) :=
  shapeCast_ab_1ab_apply v shapeCasts_S256x128_S1x256x128 u o l

theorem pay7_at (u : Fin 1) (o : Fin 256) (l : Fin 128) : k0_pay7 (F := Ideal) x0 x1 x2 (ix3 u o l) = tileVal x0 x1 x2 o := by
  show shapeCast S1x256x128 (k0_pay6 (F := Ideal) x0 x1 x2) shapeCasts_S256x128_S1x256x128 (ix3 u o l) = _
  rw [piece_at, pay6_eq, tile_at]
theorem pay8_at (u : Fin 1) (o : Fin 256) (l : Fin 128) : k0_pay8 (F := Ideal) x0 x1 x2 (ix3 u o l) = tileVal x0 x1 x2 o := by
  show shapeCast S1x256x128 (k0_pay6 (F := Ideal) x0 x1 x2) shapeCasts_S256x128_S1x256x128 (ix3 u o l) = _
  rw [piece_at, pay6_eq, tile_at]
theorem pay9_at (u : Fin 1) (o : Fin 256) (l : Fin 128) : k0_pay9 (F := Ideal) x0 x1 x2 (ix3 u o l) = tileVal x0 x1 x2 o := by
  show shapeCast S1x256x128 (k0_pay6 (F := Ideal) x0 x1 x2) shapeCasts_S256x128_S1x256x128 (ix3 u o l) = _
  rw [piece_at, pay6_eq, tile_at]
theorem pay1_at (u : Fin 1) (o : Fin 256) (l : Fin 128) :
    k0_pay1 (F := Ideal) (k0_pay6 (F := Ideal) x0 x1 x2) (ix3 u o l) = tileVal x0 x1 x2 o := by
  show shapeCast S1x256x128 (k0_pay6 (F := Ideal) x0 x1 x2) shapeCasts_S256x128_S1x256x128 (ix3 u o l) = _
  rw [piece_at, pay6_eq, tile_at]
theorem pay2_at (u : Fin 1) (o : Fin 256) (l : Fin 128) :
    k0_pay2 (F := Ideal) (k0_pay6 (F := Ideal) x0 x1 x2) (ix3 u o l) = tileVal x0 x1 x2 o := by
  show shapeCast S1x256x128 (k0_pay6 (F := Ideal) x0 x1 x2) shapeCasts_S256x128_S1x256x128 (ix3 u o l) = _
  rw [piece_at, pay6_eq, tile_at]
theorem pay3_at (u : Fin 1) (o : Fin 256) (l : Fin 128) :
    k0_pay3 (F := Ideal) (k0_pay6 (F := Ideal) x0 x1 x2) (ix3 u o l) = tileVal x0 x1 x2 o := by
  show shapeCast S1x256x128 (k0_pay6 (F := Ideal) x0 x1 x2) shapeCasts_S256x128_S1x256x128 (ix3 u o l) = _
  rw [piece_at, pay6_eq, tile_at]
theorem pay4_at (u : Fin 1) (o : Fin 256) (l : Fin 128) :
    k0_pay4 (F := Ideal) (k0_pay6 (F := Ideal) x0 x1 x2) (ix3 u o l) = tileVal x0 x1 x2 o := by
  show shapeCast S1x256x128 (k0_pay6 (F := Ideal) x0 x1 x2) shapeCasts_S256x128_S1x256x128 (ix3 u o l) = _
  rw [piece_at, pay6_eq, tile_at]
theorem pay5_at (u : Fin 1) (o : Fin 256) (l : Fin 128) :
    k0_pay5 (F := Ideal) (k0_pay6 (F := Ideal) x0 x1 x2) (ix3 u o l) = tileVal x0 x1 x2 o := by
  show shapeCast S1x256x128 (k0_pay6 (F := Ideal) x0 x1 x2) shapeCasts_S256x128_S1x256x128 (ix3 u o l) = _
  rw [piece_at, pay6_eq, tile_at]

end Stages

end Cert.KernelIdeal.Hand

end
-- ==== Proof.KCanon.lean ====
/-
  What the fused program's body leaves in the result window's buffer, as one function of the buffer's index.

  The body stores the same 256 × 128 tile through eight rectangles, lanes `128 k … 128 k + 127` for `k = 0 … 7`.  The
  rectangles tile the 1 × 256 × 1024 buffer, and each piece at its index is the tile's value at the row under it, so the
  buffer reads, at `(0, o, p)`, the tile's value at row `o`: the same at all 1024 positions.
-/
import proofs.«151444_g2000404444116002_pallasbulk_979_2_alg».proof.Proof.Gen.KernelIdeal.Frame
import proofs.«151444_g2000404444116002_pallasbulk_979_2_alg».proof.Proof.KPay

set_option maxRecDepth 16384

noncomputable section

namespace Cert.KernelIdeal.Hand

open Idealize.ShloMosaic Idealize.ShloMosaic.ValueIdx
open Cert.KernelIdeal Cert.KernelIdeal.Gen

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three loads read their whole buffers. -/
theorem ld_x (x0 : Vec Ideal S1x2048x1024 .f32) : View.ld x0 r0_0 = x0 :=
  View.ld_unit_zero (S := S1x2048x1024) zeros3 _ x0
theorem ld_w (x1 : Vec Ideal S256x2048 .f32) : View.ld x1 r0_1 = x1 :=
  View.ld_unit_zero (S := S256x2048) zeros2 _ x1
theorem ld_s (x2 : Vec Ideal S256x1 .f32) : View.ld x2 r0_2 = x2 :=
  View.ld_unit_zero (S := S256x1) zeros2 _ x2

/-- A piece whose payload is constant along the unit axis and the lanes, stored through the rectangle at lane offset
    `off`, reads at its index the value of the row under it. -/
theorem piece_row (off : Nat) (inb : ∀ a, (![0, 0, off] : Fin 3 → Nat) a + S1x256x128.size a ≤ S1x256x1024.size a)
    (pay : FVec Ideal S1x256x128 .f32) (v : Fin 256 → EReal)
    (hpay : ∀ (u : Fin 1) (o : Fin 256) (l : Fin 128), pay (ix3 u o l) = v o) (x : S1x256x128.Idx) :
    pay x = v ((Rect.unit (s := S1x256x1024) ![0, 0, off] S1x256x128.size inb).emb x (1 : Fin 3)) := by
  obtain ⟨u, o, l, rfl⟩ : ∃ (u : Fin 1) (o : Fin 256) (l : Fin 128), x = ix3 u o l := ⟨x 0, x 1, x 2, eq_ix3 x⟩
  rw [hpay]
  refine congrArg v (Fin.ext ?_)
  show o.val = 0 + 1 * o.val
  omega

/-- The buffer after the body: at `(0, o, p)` the tile's value at row `o`. -/
theorem out_at (x0 : Vec Ideal S1x2048x1024 .f32) (x1 : Vec Ideal S256x2048 .f32) (x2 : Vec Ideal S256x1 .f32)
    (y : S1x256x1024.Idx) : out0_3 (F := Ideal) x0 x1 x2 y = tileVal x0 x1 x2 (y 1) := by
  unfold out0_3
  rw [ld_x, ld_w, ld_s]
  refine View.canon_apply_of_pieces (Val := Elt Ideal) (S := S1x256x1024) (e := .f32)
    (fun y : S1x256x1024.Idx => tileVal x0 x1 x2 (y 1)) _ ?_ y (cover0_3 (F := Ideal) _ _ _ _ _ _ _ _ y)
  intro pc hpc x
  rcases List.mem_cons.mp hpc with rfl | hpc
  · exact piece_row 896 inb_S1x256x1024_S1x256x128_0_0_896 (k0_pay5 (F := Ideal) (k0_pay6 (F := Ideal) x0 x1 x2)) (tileVal x0 x1 x2) (pay5_at x0 x1 x2) x
  rcases List.mem_cons.mp hpc with rfl | hpc
  · exact piece_row 768 inb_S1x256x1024_S1x256x128_0_0_768 (k0_pay4 (F := Ideal) (k0_pay6 (F := Ideal) x0 x1 x2)) (tileVal x0 x1 x2) (pay4_at x0 x1 x2) x
  rcases List.mem_cons.mp hpc with rfl | hpc
  · exact piece_row 640 inb_S1x256x1024_S1x256x128_0_0_640 (k0_pay3 (F := Ideal) (k0_pay6 (F := Ideal) x0 x1 x2)) (tileVal x0 x1 x2) (pay3_at x0 x1 x2) x
  rcases List.mem_cons.mp hpc with rfl | hpc
  · exact piece_row 512 inb_S1x256x1024_S1x256x128_0_0_512 (k0_pay2 (F := Ideal) (k0_pay6 (F := Ideal) x0 x1 x2)) (tileVal x0 x1 x2) (pay2_at x0 x1 x2) x
  rcases List.mem_cons.mp hpc with rfl | hpc
  · exact piece_row 384 inb_S1x256x1024_S1x256x128_0_0_384 (k0_pay1 (F := Ideal) (k0_pay6 (F := Ideal) x0 x1 x2)) (tileVal x0 x1 x2) (pay1_at x0 x1 x2) x
  rcases List.mem_cons.mp hpc with rfl | hpc
  · exact piece_row 256 inb_S1x256x1024_S1x256x128_0_0_256 (k0_pay9 (F := Ideal) x0 x1 x2) (tileVal x0 x1 x2) (pay9_at x0 x1 x2) x
  rcases List.mem_cons.mp hpc with rfl | hpc
  · exact piece_row 128 inb_S1x256x1024_S1x256x128_0_0_128 (k0_pay8 (F := Ideal) x0 x1 x2) (tileVal x0 x1 x2) (pay8_at x0 x1 x2) x
  rcases List.mem_cons.mp hpc with rfl | hpc
  · exact piece_row 0 inb_S1x256x1024_S1x256x128_0_0_0 (k0_pay7 (F := Ideal) x0 x1 x2) (tileVal x0 x1 x2) (pay7_at x0 x1 x2) x
  nomatch hpc

end Cert.KernelIdeal.Hand

end
-- ==== Proof.KHost.lean ====
/-
  The three arrays the fused program's region reads, as the host lines before it leave them.

  The folded weight is `conv_w · (scale · 2⁻¹⁰)` entry by entry, the shift is the specification's shift as a 256 × 1
  column, and `x` arrives with its 32 × 32 plane flattened row-major.  The scale and the shift are the very terms the
  specification names, so nothing of them is opened.
-/
import proofs.«151444_g2000404444116002_pallasbulk_979_2_alg».proof.Proof.Gen.KernelIdeal.Launch
import proofs.«151444_g2000404444116002_pallasbulk_979_2_alg».proof.Proof.Spec
import Idealize.ShloMosaic.Lib.Pipeline.Value
import Idealize.ShloMosaic.Lib.ValueIdx
import Idealize.ShloMosaic.Lib.IdealHost
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo Idealize.SL.Sem
open Cert.KernelIdeal Cert.KernelIdeal.Gen

/-! ## The host terms at an index -/

/-- The folded weight as the host lines form it: `conv_w` times the broadcast of (the scale as a column times 2⁻¹⁰). -/
def wHost (W : FVec Ideal S256x2048 .f32) (s : FVec Ideal S256 .f32) : FVec Ideal S256x2048 .f32 :=
  mulf W (broadcastInDim S256x2048 ![0, 1] bcast_S256x1_S256x2048_0_1
    (mulf (broadcastInDim S256x1 ![0] bcast_S256_S256x1_0 s)
      (broadcastInDim S256x1 ![] bcast_S_S256x1 (constant (F := Ideal) S_ .f32 0x3A800000#32))))

theorem wHost_at (W : FVec Ideal S256x2048 .f32) (s : FVec Ideal S256 .f32) (o : Fin 256) (ch : Fin 2048) :
    wHost W s (ix2 o ch) = Cert.Pool.wK W s o ch := by
  unfold wHost Cert.Pool.wK
  rw [mulf_apply]
  refine congrArg (W (ix2 o ch) * ·) ?_
  refine (broadcastInDim_apply ![0, 1] bcast_S256x1_S256x2048_0_1 _ (ix2 o ch) (ix2 o (0 : Fin 1)) (fun a => by
    match a with
    | ⟨0, _⟩ => rfl
    | ⟨1, _⟩ => rfl)).trans ?_
  rw [mulf_apply]
  refine congrArg₂ (· * ·) ?_ ?_
  · exact broadcastInDim_apply ![0] bcast_S256_S256x1_0 s (ix2 o (0 : Fin 1)) (ix1 o) (fun a => by
      match a with
      | ⟨0, _⟩ => rfl)
  · exact (broadcastInDim_scalar_apply bcast_S_S256x1 _ _).trans rfl

/-- A 256-vector read as a 256 × 1 column. -/
theorem colHost_at (v : FVec Ideal S256 .f32) (o : Fin 256) (u : Fin 1) :
    shapeCast S256x1 v shapeCasts_S256_S256x1 (ix2 o u) = v (ix1 o) :=
  shapeCast_apply v shapeCasts_S256_S256x1 (ix2 o u) (ix1 o) (by
    rw [Shape.rowMajor_val_one, Shape.rowMajor_val_two]
    show o.val = o.val * 1 + u.val
    omega)

/-- `x` with its plane flattened reads, at position `p`, the plane at row `p / 32`, column `p % 32`. -/
theorem xHost_at (X : FVec Ideal S16x2048x32x32 .f32) (b : Fin 16) (ch : Fin 2048) (p : Fin 1024) :
    shapeCast S16x2048x1024 X shapeCasts_S16x2048x32x32_S16x2048x1024 (ix3 b ch p) = Cert.Pool.xf X b ch p := by
  unfold Cert.Pool.xf
  exact shapeCast_apply X shapeCasts_S16x2048x32x32_S16x2048x1024 (ix3 b ch p)
    (ix4 b ch (Cert.Pool.posH p) (Cert.Pool.posW p)) (by
      rw [Shape.rowMajor_val_four, Shape.rowMajor_val_three]
      show ((b.val * 2048 + ch.val) * 32 + p.val / 32) * 32 + p.val % 32 = (b.val * 2048 + ch.val) * 1024 + p.val
      omega)

/-! ## The launch contents, by their literal types -/

section Launch
variable (m : (ℓ : Loc nD τ sig) → Buf (Elt Ideal) ℓ)

abbrev aX (c : Dev nD) : FVec Ideal S16x2048x32x32 .f32 := m ((c.tc : Thread nD τ).loc main_arg0)
abbrev aW (c : Dev nD) : FVec Ideal S256x2048 .f32 := m ((c.tc : Thread nD τ).loc main_arg1)
abbrev aGamma (c : Dev nD) : FVec Ideal S256 .f32 := m ((c.tc : Thread nD τ).loc main_arg2)
abbrev aBeta (c : Dev nD) : FVec Ideal S256 .f32 := m ((c.tc : Thread nD τ).loc main_arg3)
abbrev aMean (c : Dev nD) : FVec Ideal S256 .f32 := m ((c.tc : Thread nD τ).loc main_arg4)
abbrev aVar (c : Dev nD) : FVec Ideal S256 .f32 := m ((c.tc : Thread nD τ).loc main_arg5)
/-- The scale and the shift of the launch contents: the specification's terms. -/
abbrev aScale (c : Dev nD) : FVec Ideal S256 .f32 := Cert.Pool.scaleV bcast_S_S256 (aGamma m c) (aVar m c)
abbrev aShift (c : Dev nD) : FVec Ideal S256 .f32 := Cert.Pool.shiftV (aBeta m c) (aMean m c) (aScale m c)

/-! ## What the host lines leave in the three arrays -/

theorem host_w (c : Dev nD) :
    (StableHlo.after (hostOps0 (F := Ideal)) (fun b => m (c, b)) (Proc.devRef .tc main_v11) : S256x2048.Idx → EReal)
      = wHost (aW m c) (aScale m c) := by
  after_results; rfl

theorem host_shift (c : Dev nD) :
    (StableHlo.after (hostOps0 (F := Ideal)) (fun b => m (c, b)) (Proc.devRef .tc main_v6) : S256x1.Idx → EReal)
      = shapeCast S256x1 (aShift m c) shapeCasts_S256_S256x1 := by
  after_results; rfl

theorem host_x (c : Dev nD) :
    (StableHlo.after (hostOps0 (F := Ideal)) (fun b => m (c, b)) (Proc.devRef .tc main_v12) : S16x2048x1024.Idx → EReal)
      = shapeCast S16x2048x1024 (aX m c) shapeCasts_S16x2048x32x32_S16x2048x1024 := by
  after_results; rfl

end Launch

end Cert.KernelIdeal.Hand

end
-- ==== Proof.KBlocks.lean ====
/-
  From the blocks to the array: the result array the fused program's region leaves.

  At grid point `t` the body reads batch entry `t` of the flattened `x`, the whole folded weight and the whole shift
  column, and writes back batch entry `t` of the result.  What it writes back is, at `(0, o, p)`, the specification's
  value `KVal` at `(t, o)`; the sixteen points cover the sixteen batch entries, so the array ends holding `KVal` at
  `(b, o)` at every `(b, o, p)`.
-/
import proofs.«151444_g2000404444116002_pallasbulk_979_2_alg».proof.Proof.KCanon
import proofs.«151444_g2000404444116002_pallasbulk_979_2_alg».proof.Proof.KHost
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The printed index maps over the grid: `x`'s window and the result's move along the batch axis with the point, the
    weight's and the shift's stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three input blocks at a point, by their literal types. -/
abbrev bX (c : Dev nD) (t : Fin cfg0.N) : Vec Ideal S1x2048x1024 .f32 := iblk m c 0 t
abbrev bW (c : Dev nD) (t : Fin cfg0.N) : Vec Ideal S256x2048 .f32 := iblk m c 1 t
abbrev bS (c : Dev nD) (t : Fin cfg0.N) : Vec Ideal S256x1 .f32 := iblk m c 2 t

/-- The weight's block is the whole folded weight. -/
theorem bW_at (c : Dev nD) (t : Fin cfg0.N) (o : Fin 256) (ch : Fin 2048) :
    bW m c t (ix2 o ch) = Cert.Pool.wK (aW m c) (aScale m c) o ch := by
  obtain ⟨-, -, -, e0, e1, -⟩ := idx_facts t
  have he : ((cfg0.win 1).blk t).view.emb (ix2 o ch) = ix2 o ch := by
    funext a; apply Fin.ext
    match a with
    | ⟨0, _⟩ => show win0_1.index t (0 : Fin 2) * 256 + 1 * o.val = o.val; omega
    | ⟨1, _⟩ => show win0_1.index t (1 : Fin 2) * 2048 + 1 * ch.val = ch.val; omega
  show V m c main_v11 (((cfg0.win 1).blk t).view.emb (ix2 o ch)) = _
  rw [he]
  show StableHlo.after hostOps0 (fun b => m (c, b)) (Proc.devRef .tc main_v11) (ix2 o ch) = _
  exact (congrFun (host_w m c) (ix2 o ch)).trans (wHost_at _ _ o ch)

/-- The shift's block is the whole shift column. -/
theorem bS_at (c : Dev nD) (t : Fin cfg0.N) (o : Fin 256) (u : Fin 1) :
    bS m c t (ix2 o u) = aShift m c (ix1 o) := by
  obtain ⟨-, -, -, -, -, e0, e1, -⟩ := idx_facts t
  have he : ((cfg0.win 2).blk t).view.emb (ix2 o u) = ix2 o u := by
    funext a; apply Fin.ext
    match a with
    | ⟨0, _⟩ => show win0_2.index t (0 : Fin 2) * 256 + 1 * o.val = o.val; omega
    | ⟨1, _⟩ => show win0_2.index t (1 : Fin 2) * 1 + 1 * u.val = u.val; omega
  show V m c main_v6 (((cfg0.win 2).blk t).view.emb (ix2 o u)) = _
  rw [he]
  show StableHlo.after hostOps0 (fun b => m (c, b)) (Proc.devRef .tc main_v6) (ix2 o u) = _
  exact (congrFun (host_shift m c) (ix2 o u)).trans (colHost_at _ o u)

/-- `x`'s block at point `t` is batch entry `t` of `x` with its plane flattened. -/
theorem bX_at (c : Dev nD) (t : Fin cfg0.N) (b : Fin 16) (hb : b.val = t.val) (u : Fin 1) (ch : Fin 2048) (p : Fin 1024) :
    bX m c t (ix3 u ch p) = Cert.Pool.xf (aX m c) b ch p := by
  obtain ⟨e0, e1, e2, -⟩ := idx_facts t
  have he : ((cfg0.win 0).blk t).view.emb (ix3 u ch p) = ix3 b ch p := by
    funext a; apply Fin.ext
    match a with
    | ⟨0, _⟩ => show win0_0.index t (0 : Fin 3) * 1 + 1 * u.val = b.val; omega
    | ⟨1, _⟩ => show win0_0.index t (1 : Fin 3) * 2048 + 1 * ch.val = ch.val; omega
    | ⟨2, _⟩ => show win0_0.index t (2 : Fin 3) * 1024 + 1 * p.val = p.val; omega
  show V m c main_v12 (((cfg0.win 0).blk t).view.emb (ix3 u ch p)) = _
  rw [he]
  show StableHlo.after hostOps0 (fun b => m (c, b)) (Proc.devRef .tc main_v12) (ix3 b ch p) = _
  exact (congrFun (host_x m c) (ix3 b ch p)).trans (xHost_at _ b ch p)

/-- The tile's value of the blocks at point `t` is the specification's value at batch entry `t`. -/
theorem tileVal_blocks (c : Dev nD) (t : Fin cfg0.N) (b : Fin 16) (hb : b.val = t.val) (o : Fin 256) :
    tileVal (bX m c t) (bW m c t) (bS m c t) o
      = Cert.Pool.KVal (aX m c) (aW m c) (aScale m c) (aShift m c) b o := by
  have hw : (fun ch => bW m c t (ix2 o ch)) = Cert.Pool.wK (aW m c) (aScale m c) o := funext fun ch => bW_at m c t o ch
  have hx : (fun ch p => bX m c t (ix3 (0 : Fin 1) ch p)) = Cert.Pool.xf (aX m c) b :=
    funext fun ch => funext fun p => bX_at m c t b hb 0 ch p
  have hs : bS m c t (ix2 o (0 : Fin 1)) = aShift m c (ix1 o) := bS_at m c t o 0
  show max (Cert.Pool.Kform (fun ch => bW m c t (ix2 o ch)) (fun ch p => bX m c t (ix3 (0 : Fin 1) ch p))
      + bS m c t (ix2 o (0 : Fin 1))) 0 = max (Cert.Pool.Kform (Cert.Pool.wK (aW m c) (aScale m c) o) (Cert.Pool.xf (aX m c) b)
      + aShift m c (ix1 o)) 0
  rw [hw, hx, hs]

/-- The result array as the region leaves it: the specification's value at `(b, o)`, at every position. -/
def arrK (c : Dev nD) : S16x256x1024.Idx → EReal :=
  fun i => Cert.Pool.KVal (aX m c) (aW m c) (aScale m c) (aShift m c) (i 0) (i 1)

/-- What point `t` writes back is block `t` of that array. -/
theorem flushed_eq (c : Dev nD) (t : Fin cfg0.N) :
    (dats m 0 c).flushed 3 t = ((cfg0.win 3).blk t).view.read (Elt Ideal) (arrK m c) := by
  show (cfg0.win 3).cut (grid0.coords t) ((dats m 0 c).after 3 t) = _
  rw [after0_3]
  obtain ⟨-, -, -, -, -, -, -, e0, e1, e2⟩ := idx_facts t
  funext j
  have hj0 : (j 0).val < 1 := (j 0).isLt
  refine (out_at (bX m c t) (bW m c t) (bS m c t) j).trans ?_
  have ht : t.val < 16 := lt_of_lt_of_eq t.isLt (show cfg0.N = 16 from N_0)
  refine (tileVal_blocks m c t ⟨t.val, ht⟩ rfl (j 1)).trans ?_
  show Cert.Pool.KVal (aX m c) (aW m c) (aScale m c) (aShift m c) _ _
    = Cert.Pool.KVal (aX m c) (aW m c) (aScale m c) (aShift m c) ((((cfg0.win 3).blk t).view.emb j) 0) ((((cfg0.win 3).blk t).view.emb j) 1)
  congr 1
  · apply Fin.ext
    show t.val = win0_3.index t (0 : Fin 3) * 1 + 1 * (j 0).val
    omega
  · apply Fin.ext
    show (j 1).val = win0_3.index t (1 : Fin 3) * 256 + 1 * (j 1).val
    omega

/-- An index of the array is in point `t`'s block iff each coordinate is in the block's range on its axis. -/
theorem mem_blk (t : Fin cfg0.N) (i : S16x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v13).slice (win0_3.rect t)).set ↔ _
  rw [View.set_slice_whole, Rect.mem_set_unit]
  exact Iff.rfl

/-- Point `b` covers batch entry `b`. -/
theorem cover (i : S16x256x1024.Idx) :
    ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 1024 := (i 2).isLt
  have hN : grid0.N = 16 := N_0
  obtain ⟨t, ht⟩ : ∃ t : Fin cfg0.N, t.val = (i 0).val := ⟨⟨(i 0).val, by show (i 0).val < grid0.N; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The result array after the region. -/
theorem final (c : Dev nD) : (dats m 0 c).arrAt 3 cfg0.N = arrK m c :=
  (dats m 0 c).arrAt_eq_of_cover 3 (arrK m c) (fun t _ => flushed_eq m c t) cover

end Cert.KernelIdeal.Hand

end
-- ==== Proof.KRun.lean ====
/-
  The fused program's run with its result named.  Every weakly fair execution of its @main terminates, the arguments
  end as launched, and the result buffer holds `Pool.KOut` of the arguments: per batch entry and output channel the
  lane-folded, lane-wise weighted, lane-summed total plus the shift, clamped below at zero, the same at all 1024 positions.
-/
import proofs.«151444_g2000404444116002_pallasbulk_979_2_alg».proof.Proof.KBlocks

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (ρ : Dev nD → PrngReg)

/-- The scale and the shift the host lines compute from the launch contents of `γ, β, μ, σ²`. -/
abbrev scl (c : Dev nD) : FVec Ideal S256 .f32 :=
  Cert.Pool.scaleV bcast_S_S256 (m ((c.tc : Thread nD τ).loc main_arg2)) (m ((c.tc : Thread nD τ).loc main_arg5))
abbrev shf (c : Dev nD) : FVec Ideal S256 .f32 :=
  Cert.Pool.shiftV (m ((c.tc : Thread nD τ).loc main_arg3)) (m ((c.tc : Thread nD τ).loc main_arg4)) (scl m c)

/-- The result array, as the specification's function of the launch contents. -/
abbrev outK (c : Dev nD) : Buf (Elt Ideal) ((c.tc : Thread nD τ).loc main_v14) :=
  Cert.Pool.KOut (m ((c.tc : Thread nD τ).loc main_arg0)) (m ((c.tc : Thread nD τ).loc main_arg1)) (scl m c) (shf m c)

/-- The host line after the region reshapes the result array: its 1024 positions become the 32 × 32 plane, and the
    specification's value does not depend on the position. -/
theorem plane_eq (c : Dev nD) :
    shapeCast S16x256x32x32 (arrK m c) shapeCasts_S16x256x1024_S16x256x32x32 = outK m c := by
  funext j
  obtain ⟨b, o, hh, ww, rfl⟩ : ∃ (b : Fin 16) (o : Fin 256) (hh : Fin 32) (ww : Fin 32), j = ix4 b o hh ww :=
    ⟨j 0, j 1, j 2, j 3, eq_ix4 j⟩
  refine (shapeCast_apply (arrK m c) shapeCasts_S16x256x1024_S16x256x32x32 (ix4 b o hh ww)
    (ix3 b o (⟨32 * hh.val + ww.val, by omega⟩ : Fin 1024)) (by
      rw [Shape.rowMajor_val_three, Shape.rowMajor_val_four]
      show (b.val * 256 + o.val) * 1024 + (32 * hh.val + ww.val) = ((b.val * 256 + o.val) * 32 + hh.val) * 32 + ww.val
      omega)).trans ?_
  show Cert.Pool.KVal (aX m c) (aW m c) (aScale m c) (aShift m c) b o = Cert.Pool.KVal (aX m c) (aW m c) (aScale m c) (aShift m c) b o
  rfl

/-- What the host tail leaves in the result buffer. -/
theorem tail_val (c : Dev nD) :
    Pipeline.afterTail₀ cfgs (dats m) 0 (V0 m) [hostOps1] c main_v14 = outK m c := by
  have hA : Pipeline.withArrays spec0 c (V0 m c) (fun w => (dats m 0 c).arrAt w cfg0.N) (Proc.devRef .tc main_v13) = arrK m c :=
    (Pipeline.withArrays_arr spec0 launch0.win.arr_inj c _ _ 3).trans (final m c)
  unfold Pipeline.afterTail₀
  show StableHlo.after hostOps1 _ (Proc.devRef .tc main_v14) = _
  after_results
  refine Eq.trans ?_ (plane_eq m c)
  exact congrArg (fun A : S16x256x1024.Idx → EReal => shapeCast S16x256x32x32 A shapeCasts_S16x256x1024_S16x256x32x32) hA

theorem run_val : θ_run (defs (F := Ideal)) (onTc (τ := τ) (main (F := Ideal))) ⟨m, fun _ => 0, ρ⟩ (fun r => ∀ c : Dev nD,
      r.2.mem ((c.tc : Thread nD τ).loc main_v14) = outK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (defs (F := Ideal)) _ _).mono (fun _ h c =>
    ⟨((h c).2 main_v14 (Pipeline.mem_restRefs_of main_v14 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefShared.lean ====
/-
  The two-stage program, stage 1 (global pool + 1×1 conv, the channel axis tiled over the grid's second axis):
  what the three control cases of its body share.

  The grid is 16 × 4, row-major, so point `t` is batch entry `t / 4`, channel tile `t % 4`.  The body zeroes its
  accumulator where the tile index is 0 (`cond0_0`), adds the tile's contribution at every point, and writes the
  finished row (accumulator + shift, clamped at zero) to its output block where the tile index is 3 (`cond0_1`).
  So there are three cases: A (first tile), B (tiles 1 and 2), C (last tile).  The output window is idle, and not
  written back, in cases A and B.
-/
import proofs.«151444_g2000404444116002_pallasbulk_979_2_alg».proof.Proof.Gen.ReferenceIdeal.Launch
import proofs.«151444_g2000404444116002_pallasbulk_979_2_alg».proof.Proof.Gen.ReferenceIdeal.Skeleton
import proofs.«151444_g2000404444116002_pallasbulk_979_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The branch conditions, decided over the grid -/

/-- "This is the first channel tile": the body's first `scf.if`, as a function of the grid point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last channel tile": the body's second `scf.if`. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile the output block is neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On the last tile it is stored. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x256 .f32 := (Memref.whole cc0_stg3_0 : Memref sig .tc .vmem S1x1x256 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S1x256 .f32 := Memref.whole cc0_scratch0
abbrev VS0_0 : View sig .tc .vmem S1x256 .f32 := scM0_0.view

/-- The core's scoped buffers that are neither a staging buffer of stage 1 nor its accumulator (stage 2's staging
    buffers), each whole at some contents: they ride along untouched. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant (every scoped buffer that is no staging buffer at some contents, and the generator register) with
    the accumulator split off as a memref owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; try rfl

end Cert.ReferenceIdeal.Hand

end
-- ==== Proof.RefRunA.lean ====
/-
  Stage 1's body at a FIRST channel tile (case A): the accumulator, found at anything, is zeroed and then takes the
  tile's contribution; the output block is left as found.  The run is the symbolic execution of the body's skeleton;
  the pieces the accumulator ends with are what that execution finds.
-/
import proofs.«151444_g2000404444116002_pallasbulk_979_2_alg».proof.Proof.RefShared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x512x1024 .f32) (x1 : Vec F S512x256 .f32) (x2 : Vec F S1x256 .f32) :
    Σ' (L3 : List (View.Piece (Elt F) S1x1x256 .f32)), { LS0 : List (View.Piece (Elt F) S1x256 .f32) //
      ∀ (xi3 : Vec F S1x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨[], ?_, fun xi3 E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RefRunB.lean ====
/-
  Stage 1's body at a MIDDLE channel tile (case B): the accumulator, found at what the point before left, takes the
  tile's contribution; the output block is left as found.
-/
import proofs.«151444_g2000404444116002_pallasbulk_979_2_alg».proof.Proof.RefRunA

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x512x1024 .f32) (x1 : Vec F S512x256 .f32) (x2 : Vec F S1x256 .f32) (xs0 : Vec F S1x256 .f32) :
    Σ' (L3 : List (View.Piece (Elt F) S1x1x256 .f32)), { LS0 : List (View.Piece (Elt F) S1x256 .f32) //
      ∀ (xi3 : Vec F S1x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨[], ?_, fun xi3 E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RefRunC.lean ====
/-
  Stage 1's body at a LAST channel tile (case C): the accumulator takes the tile's contribution, and the finished row
  (accumulator plus shift, clamped below at zero) is stored into the output block, found at anything.
-/
import proofs.«151444_g2000404444116002_pallasbulk_979_2_alg».proof.Proof.RefRunB

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) :
    Σ' (L3 : List (View.Piece (Elt F) S1x1x256 .f32)), { LS0 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨?_, ?_, fun E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.Hand

end
-- ==== Proof.RefFrame0.lean ====
/-
  The two-stage program, stage 1, as a pipeline region entered from buffer contents `V`: what its body leaves at each
  grid point, and the proof data built from it.

  Point `t` (batch entry `t / 4`, channel tile `t % 4`) leaves in the accumulator: at tile 0 the tile's contribution
  over a zeroed accumulator; at a later tile the contribution added to what point `t − 1` left (`outsAt0`, by recursion
  on the point).  The output block holds the finished row after a last tile and is idle elsewhere.  The region's
  invariant (`PhiS`) is the class invariant before the first point and afterwards names the accumulator's contents —
  the second component of `outsAt0` at the point before — beside stage 2's untouched staging buffers and the generator
  register.
-/
import proofs.«151444_g2000404444116002_pallasbulk_979_2_alg».proof.Proof.RefRunC

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end Region0

/-! ## What each case leaves -/

/-- What case A leaves in the output block's staging buffer: its pieces read back over junk (none: a placeholder nothing consults, the window being idle and not written back there). -/
def out0_A_3 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x512x1024 .f32) (x1 : Vec F S512x256 .f32) (x2 : Vec F S1x256 .f32) : Vec F S1x1x256 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x512x1024 .f32) (x1 : Vec F S512x256 .f32) (x2 : Vec F S1x256 .f32) (y : S1x256.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x256.size (by sl_kernel_rfl) y

/-- What case A leaves in the accumulator. -/
def sout0_A_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x512x1024 .f32) (x1 : Vec F S512x256 .f32) (x2 : Vec F S1x256 .f32) : Vec F S1x256 .f32 :=
  VS0_0.read (Elt F) (VS0_0.writes (Elt F) VS0_0.junk (kernelRun0_A c i arg2 harg2 arg3 harg3 arg4 harg4 arg5 harg5 arg6 harg6 hc0 hc1 x0 x1 x2).2.1)

/-- What case B leaves in the output block's staging buffer: its pieces read back over junk (none: a placeholder nothing consults, the window being idle and not written back there). -/
def out0_B_3 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x512x1024 .f32) (x1 : Vec F S512x256 .f32) (x2 : Vec F S1x256 .f32) (xs0 : Vec F S1x256 .f32) : Vec F S1x1x256 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x512x1024 .f32) (x1 : Vec F S512x256 .f32) (x2 : Vec F S1x256 .f32) (xs0 : Vec F S1x256 .f32) (y : S1x256.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x256.size (by sl_kernel_rfl) y

/-- What case B leaves in the accumulator. -/
def sout0_B_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x512x1024 .f32) (x1 : Vec F S512x256 .f32) (x2 : Vec F S1x256 .f32) (xs0 : Vec F S1x256 .f32) : Vec F S1x256 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the output block's staging buffer: its pieces read back over junk. -/
def out0_C_3 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) : Vec F S1x1x256 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's stores into the accumulator cover it. -/
theorem scover0_C_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) (y : S1x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x256.size (by sl_kernel_rfl) y

/-- What case C leaves in the accumulator. -/
def sout0_C_0 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) : Vec F S1x256 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the output block covers it. -/
theorem cover0_C_3 (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) (y : S1x1x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x256.size (by sl_kernel_rfl) y

section Region0
variable (V : (c : Dev nD) → (b : Ref sig .tc) → Buf (Elt F) ((c : Thread nD τ).loc b))

/-! ## The accumulation over the points -/

/-- What the output block's staging buffer and the accumulator hold after the body at position `n` (a pair): the case the
    tile index selects, run on the point's blocks, the accumulator of a later tile over what position `n − 1` left. -/
def outsAt0 (c : Dev nD) : (n : ℕ) → n < cfg0.N → Vec F S1x1x256 .f32 × Vec F S1x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a first tile. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The proof data -/

/-- Stage 1's proof data on core `c`: the arrays as the region finds them; after the body each input's buffer at its
    block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.ReferenceIdeal.Hand

end
-- ==== Proof.RefBody0.lean ====
/-
  Stage 1's body obligation: at every grid point the body, called on the windows' current staging buffers holding
  what the pipeline put there and on the accumulator as the invariant names it, runs to the post that hands every
  buffer back at the proof data's contents.  Three cases by the tile index (first, middle, last); at a first tile the
  accumulator may hold anything (it is zeroed), at a later one it holds what the point before left.
-/
import proofs.«151444_g2000404444116002_pallasbulk_979_2_alg».proof.Proof.RefFrame0

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point, case by case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a first tile: the accumulator is zeroed, whatever it held
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hos⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hos Hg]
        · isplitl [HS0 Hos]
          · isplitl [HS0]
            · unfold owns; iexists _; isplitr
              swap; · iexact HS0
              ipureintro; exact View.read_writes_of_cover _ _ _ _ _ (scover0_A_0 c _ _ _ _ _ _ _ _ _ _ _ _ _ _ _ _)
            iexact Hos
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hos⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hos Hg]
        · isplitl [HS0 Hos]
          · isplitl [HS0]
            · unfold owns; iexists _; isplitr
              swap; · iexact HS0
              ipureintro; exact View.read_writes_of_cover _ _ _ _ _ (scover0_A_0 c _ _ _ _ _ _ _ _ _ _ _ _ _ _ _ _)
            iexact Hos
          iexact Hg
        isplitl [Ho]; · iexact Ho
        isplitl [H0]; · iexact H0
        isplitl [H1]; · iexact H1
        isplitl [H2]; · iexact H2
        iexists _; iexact H3
  · by_cases h1 : t.val % 4 = 3
    · -- a last tile: the accumulator holds what the point before left; the output block is stored
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, Hos⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hos Hg]
        · isplitl [HS0 Hos]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hos
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- a middle tile: the accumulator holds what the point before left
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hos⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hos Hg]
        · isplitl [HS0 Hos]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hos
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by
    rw [Fin.val_last]; have : cfg0.N = 64 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, Hos⟩, Hg⟩
  isplitl [HS0 Hos]
  · isplitl [HS0]
    · iexists _; iexact HS0
    iexact Hos
  iexact Hg

end Region0

end Cert.ReferenceIdeal.Hand

end
-- ==== Proof.RefFrame1.lean ====
/-
  The two-stage program, stage 2 (the broadcast of each pooled value over the 1024 positions), as a pipeline region
  entered from buffer contents `V`.  Its body loads the (1, 256, 1) column of pooled values once and stores the same
  (1, 256, 128) tile — the column repeated along the lanes — at the eight lane offsets 0, 128, …, 896 of its
  (1, 256, 1024) output block; the eight stores tile the block.  Nothing is carried between points.
-/
import proofs.«151444_g2000404444116002_pallasbulk_979_2_alg».proof.Proof.RefShared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
end Region1

/-! ## The body's accesses -/

abbrev r1_0 : Rect S1x256x1 := Rect.unit (s := S1x256x1) ![0, 0, 0] S1x256x1.size inb_S1x256x1_S1x256x1_0_0_0
abbrev r1_1 : Rect S1x256x1024 := Rect.unit (s := S1x256x1024) ![0, 0, 0] S1x256x128.size inb_S1x256x1024_S1x256x128_0_0_0
abbrev r1_2 : Rect S1x256x1024 := Rect.unit (s := S1x256x1024) ![0, 0, 128] S1x256x128.size inb_S1x256x1024_S1x256x128_0_0_128
abbrev r1_3 : Rect S1x256x1024 := Rect.unit (s := S1x256x1024) ![0, 0, 256] S1x256x128.size inb_S1x256x1024_S1x256x128_0_0_256
abbrev r1_4 : Rect S1x256x1024 := Rect.unit (s := S1x256x1024) ![0, 0, 384] S1x256x128.size inb_S1x256x1024_S1x256x128_0_0_384
abbrev r1_5 : Rect S1x256x1024 := Rect.unit (s := S1x256x1024) ![0, 0, 512] S1x256x128.size inb_S1x256x1024_S1x256x128_0_0_512
abbrev r1_6 : Rect S1x256x1024 := Rect.unit (s := S1x256x1024) ![0, 0, 640] S1x256x128.size inb_S1x256x1024_S1x256x128_0_0_640
abbrev r1_7 : Rect S1x256x1024 := Rect.unit (s := S1x256x1024) ![0, 0, 768] S1x256x128.size inb_S1x256x1024_S1x256x128_0_0_768
abbrev r1_8 : Rect S1x256x1024 := Rect.unit (s := S1x256x1024) ![0, 0, 896] S1x256x128.size inb_S1x256x1024_S1x256x128_0_0_896

/-- The output block's staging buffer after the body: its eight stores as pieces, last first, each the lane-repeated column. -/
def out1_1 (x0 : Vec F S1x256x1 .f32) : Vec F S1x256x1024 .f32 :=
  View.canon [⟨r1_8, k1_pay1 (View.ld x0 r1_0)⟩,
    ⟨r1_7, k1_pay1 (View.ld x0 r1_0)⟩,
    ⟨r1_6, k1_pay1 (View.ld x0 r1_0)⟩,
    ⟨r1_5, k1_pay1 (View.ld x0 r1_0)⟩,
    ⟨r1_4, k1_pay1 (View.ld x0 r1_0)⟩,
    ⟨r1_3, k1_pay1 (View.ld x0 r1_0)⟩,
    ⟨r1_2, k1_pay1 (View.ld x0 r1_0)⟩,
    ⟨r1_1, k1_pay1 (View.ld x0 r1_0)⟩]

/-- The eight stores tile the block. -/
theorem cover1_1 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (y : S1x256x1024.Idx) :
    ∃ pc ∈ ([⟨r1_8, p0⟩, ⟨r1_7, p1⟩, ⟨r1_6, p2⟩, ⟨r1_5, p3⟩, ⟨r1_4, p4⟩, ⟨r1_3, p5⟩, ⟨r1_2, p6⟩, ⟨r1_1, p7⟩] : List (View.Piece (Elt F) S1x256x1024 .f32)), y ∈ pc.1.set :=
  View.cover_of_tiled [⟨r1_8, p0⟩, ⟨r1_7, p1⟩, ⟨r1_6, p2⟩, ⟨r1_5, p3⟩, ⟨r1_4, p4⟩, ⟨r1_3, p5⟩, ⟨r1_2, p6⟩, ⟨r1_1, p7⟩] S1x256x128.size (by rfl) y

set_option maxHeartbeats 1000000 in
/-- The body on whole staging memrefs: the input's at its contents, the output's at anything, runs to the continuation
    with the input's unchanged and the output's at `out1_1` of the input's. -/
theorem sound_kernel1 (c : Dev nD) (E : Set ℕ) (i : grid1.Coords) (arg2 : Memref sig .tc .vmem S1x256x1 .f32) (harg2 : arg2.IsWhole) (arg3 : Memref sig .tc .vmem S1x256x1024 .f32) (harg3 : arg3.IsWhole)
    (x0 : Vec F S1x256x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1_1 _ _ _ _ _ _ _ _)

section Region1
variable (V : (c : Dev nD) → (b : Ref sig .tc) → Buf (Elt F) ((c : Thread nD τ).loc b))

/-- Stage 2's proof data on core `c`: the arrays as the region finds them; after the body the input's buffer at its
    block and the output's at `out1_1` of it; the class invariant, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand

end
-- ==== Proof.RefLaunch.lean ====
/-
  The two-stage program's run.  @main is five segments: the host lines that fold the batch-norm into weight and shift
  and flatten `x`; stage 1; the reshape of the pooled rows into columns; stage 2; the reshape of the result to
  (16, 256, 32, 32).  The buffer contents at the six boundaries are a fold from the launch memory (`B0 … B5`): a host
  stretch applies its operations, a region leaves its arrays at what its write-backs produce and every other buffer
  as entered.  The run's post names EVERY unscoped buffer at the last boundary's contents `B5`; the frame (the
  arguments end as launched) and the value of the result buffer are both read off it.
-/
import proofs.«151444_g2000404444116002_pallasbulk_979_2_alg».proof.Proof.RefBody0
import proofs.«151444_g2000404444116002_pallasbulk_979_2_alg».proof.Proof.RefFrame1
import proofs.«151444_g2000404444116002_pallasbulk_979_2_alg».proof.Proof.Gen.ReferenceIdeal.Regions

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => (s₀ m ρ).mem ((c : Dev nD), b)
/-- After the first host stretch (stage 1's entry). -/
abbrev B1 : Dev nD → Valuation τ sig (Elt F) := fun c => StableHlo.after hostOps0 (B0 m ρ c)
abbrev VB1 : (c : Dev nD) → (b : Ref sig .tc) → Buf (Elt F) ((c : Thread nD τ).loc b) := fun c b => B1 m ρ c b
/-- At stage 1's exit: its arrays at what the pipeline leaves, every other buffer as entered. -/
def B2 (c : Dev nD) : Valuation τ sig (Elt F) :=
  Pipeline.withArrays spec0 c (B1 m ρ c) fun w => (dat0 (VB1 m ρ) c).arrAt w cfg0.N
theorem B2_arr (c : Dev nD) (w : Fin cfg0.W) :
    B2 m ρ c (Proc.devRef .tc (Pipeline.arrRef spec0 w)) = (dat0 (VB1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev VB2 : (c : Dev nD) → (b : Ref sig .tc) → Buf (Elt F) ((c : Thread nD τ).loc b) := fun c b => B2 m ρ c b
theorem hF0 (c : Dev nD) (w : Fin cfg0.W) : (dat0 (VB1 m ρ) c).arrAt w cfg0.N = VB2 m ρ c (Pipeline.arrRef spec0 w) :=
  (B2_arr m ρ c w).symm
theorem hrest0 (c : Dev nD) : ∀ b, b ∉ Finset.univ.image (Pipeline.arrRef spec0) → VB2 m ρ c b = VB1 m ρ c b :=
  fun b hb => B2_of_ne m ρ c b fun w e => hb (Finset.mem_image.mpr ⟨w, Finset.mem_univ _, e⟩)

/-- After the middle host stretch (stage 2's entry). -/
abbrev B3 : Dev nD → Valuation τ sig (Elt F) := fun c => StableHlo.after hostOps1 (B2 m ρ c)
abbrev VB3 : (c : Dev nD) → (b : Ref sig .tc) → Buf (Elt F) ((c : Thread nD τ).loc b) := fun c b => B3 m ρ c b
/-- At stage 2's exit. -/
def B4 (c : Dev nD) : Valuation τ sig (Elt F) :=
  Pipeline.withArrays spec1 c (B3 m ρ c) fun w => (dat1 (VB3 m ρ) c).arrAt w cfg1.N
theorem B4_arr (c : Dev nD) (w : Fin cfg1.W) :
    B4 m ρ c (Proc.devRef .tc (Pipeline.arrRef spec1 w)) = (dat1 (VB3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev VB4 : (c : Dev nD) → (b : Ref sig .tc) → Buf (Elt F) ((c : Thread nD τ).loc b) := fun c b => B4 m ρ c b
theorem hF1 (c : Dev nD) (w : Fin cfg1.W) : (dat1 (VB3 m ρ) c).arrAt w cfg1.N = VB4 m ρ c (Pipeline.arrRef spec1 w) :=
  (B4_arr m ρ c w).symm
theorem hrest1 (c : Dev nD) : ∀ b, b ∉ Finset.univ.image (Pipeline.arrRef spec1) → VB4 m ρ c b = VB3 m ρ c b :=
  fun b hb => B4_of_ne m ρ c b fun w e => hb (Finset.mem_image.mpr ⟨w, Finset.mem_univ _, e⟩)

/-- After the last host stretch: the contents @main returns with. -/
abbrev B5 : Dev nD → Valuation τ sig (Elt F) := fun c => StableHlo.after hostOps2 (B4 m ρ c)

/-! ### The arguments end as launched: no host line writes one, and no region has one among its arrays -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := StableHlo.after_of_writes_sub hostOps2 _ hostOps2_writes (r := main_arg5) (by decide)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl

/-! ## The proof data family and the thread state -/

abbrev hadm : (p : Fin 2) → (pcfgs (F := F) p).Adm := fun p => (cfgs p).toPCfg_adm
/-- Each pipeline's proof data at its region's entry contents. -/
def rpdats : (p : Fin 2) → (c : Dev nD) → Dat τ (Elt F) Unit ℕ (UR sig nD τ) ℕ (Pipeline.pin (pcfgs (F := F)) hadm p) c
  | ⟨0, _⟩ => fun c => dat0 (VB1 m ρ) c
  | ⟨1, _⟩ => fun c => dat1 (VB3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
def reg0 : Pipeline.RegionSeg (pcfgs (F := F)) hadm (rpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) hadm (rpdats m ρ) launch0.win launch0.arr_whole c
      ((rpdats m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (VB1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (rpdats m ρ) ((rpdats m ρ 0 c).share_full fun _ => rfl)
      (VB1 m ρ c) (VB2 m ρ c) ((rpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) hadm (rpdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (VB3 m ρ c)
  hentry c := by
    rw [Pipeline.ownSems0_none]
    have hsplit := Pipeline.arrays_of_unscopedBufs (p := 1) (pcfgs (F := F)) hadm (rpdats m ρ) launch1.win launch1.arr_whole c
      ((rpdats m ρ 1 c).share_full fun _ => rfl) (VB3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (rpdats m ρ) ((rpdats m ρ 1 c).share_full fun _ => rfl)
      (VB3 m ρ c) (VB4 m ρ c) ((rpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) hadm (rpdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (rsegs m ρ) := (main_chain c).trans (by chain_rfl)

set_option backward.isDefEq.respectTransparency.types false in
/-- THE RUN: every weakly fair execution of @main terminates, nothing faulting, and every final memory holds each
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) hadm (rpdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.ReferenceIdeal.Hand

end
-- ==== Proof.RefVal0Pay.lean ====
/-
  Stage 1's three stored values read at one output channel, on the extended reals.

  The reset stores zero.  The update stores, at channel o, the accumulator's entry plus the tile's contraction:
  the sum over the tile's 512 channels of (the channel's 1024 positions added up) times the weight of (channel, o).
  The finish stores max(accumulator + shift, 0).  The contraction's index is re-indexed through its one coordinate;
  the position sum is the reduction over the last axis.
-/
import proofs.«151444_g2000404444116002_pallasbulk_979_2_alg».proof.Proof.Gen.ReferenceIdeal.Skeleton
import Idealize.ShloMosaic.PureOps.Ideal.Laws
import Idealize.ShloMosaic.Lib.ValueIdx
import Idealize.ShloMosaic.Lib.Pipeline.Value

noncomputable section

namespace Cert.ReferenceIdeal.Hand

open Idealize.ShloMosaic Idealize.ShloMosaic.ValueIdx
open Cert.ReferenceIdeal Cert.ReferenceIdeal.Gen

/-! ## The tile contraction's operand indices, axis by axis -/

theorem lhs_tile_0 (i : S1x256.Idx) (q : dot_S1x512_S512x256_S1x256_1_0_0_1_n_n.contr.Idx) :
    (dot_S1x512_S512x256_S1x256_1_0_0_1_n_n.lhsIdx i q 0).val = (i 0).val := by
  unfold DotDims.lhsIdx
  rw [dif_neg (show ¬(0 : Fin S1x512.rank) ∈ dot_S1x512_S512x256_S1x256_1_0_0_1_n_n.lhsBatch by decide), dif_pos (show (0 : Fin S1x512.rank) ∈ dot_S1x512_S512x256_S1x256_1_0_0_1_n_n.lhsNonContracting by decide)]
  rfl
theorem lhs_tile_1 (i : S1x256.Idx) (q : dot_S1x512_S512x256_S1x256_1_0_0_1_n_n.contr.Idx) :
    (dot_S1x512_S512x256_S1x256_1_0_0_1_n_n.lhsIdx i q 1).val = (q ⟨0, by decide⟩).val :=
  dot_S1x512_S512x256_S1x256_1_0_0_1_n_n.lhsIdx_val_of_single rfl i q
theorem rhs_tile_0 (i : S1x256.Idx) (q : dot_S1x512_S512x256_S1x256_1_0_0_1_n_n.contr.Idx) :
    (dot_S1x512_S512x256_S1x256_1_0_0_1_n_n.rhsIdx i q 0).val = (q ⟨0, by decide⟩).val :=
  dot_S1x512_S512x256_S1x256_1_0_0_1_n_n.rhsIdx_val_of_single rfl i q
theorem rhs_tile_1 (i : S1x256.Idx) (q : dot_S1x512_S512x256_S1x256_1_0_0_1_n_n.contr.Idx) :
    (dot_S1x512_S512x256_S1x256_1_0_0_1_n_n.rhsIdx i q 1).val = (i 1).val := by
  unfold DotDims.rhsIdx
  rw [dif_neg (show ¬(1 : Fin S512x256.rank) ∈ dot_S1x512_S512x256_S1x256_1_0_0_1_n_n.rhsBatch by decide), dif_pos (show (1 : Fin S512x256.rank) ∈ dot_S1x512_S512x256_S1x256_1_0_0_1_n_n.rhsNonContracting by decide)]
  rfl

/-- The row-by-tile product into a zero accumulator, at channel o: the sum over the tile's channels. -/
theorem matmul_tile_apply (l : FVec Ideal S1x512 .f32) (r : FVec Ideal S512x256 .f32) (o : Fin 256) :
    matmul dot_S1x512_S512x256_S1x256_1_0_0_1_n_n none l r (constant (F := Ideal) S1x256 .f32 0x00000000#32) (ix2 0 o)
      = ∑ k : Fin 512, l (ix2 0 k) * r (ix2 k o) := by
  refine (Ideal.matmul_constant_zero_apply dot_S1x512_S512x256_S1x256_1_0_0_1_n_n none l r (ix2 0 o)).trans ?_
  rw [← Equiv.sum_comp (contrEquiv1 dot_S1x512_S512x256_S1x256_1_0_0_1_n_n 512 rfl rfl).symm]
  refine Finset.sum_congr rfl fun k _ => ?_
  have hk := contrEquiv1_symm_val dot_S1x512_S512x256_S1x256_1_0_0_1_n_n 512 rfl rfl k
  have el : dot_S1x512_S512x256_S1x256_1_0_0_1_n_n.lhsIdx (ix2 0 o) ((contrEquiv1 dot_S1x512_S512x256_S1x256_1_0_0_1_n_n 512 rfl rfl).symm k) = ix2 0 k := funext fun a => Fin.ext (by
    match a with
    | ⟨0, _⟩ => exact lhs_tile_0 _ _
    | ⟨1, _⟩ => exact (lhs_tile_1 _ _).trans hk)
  have er : dot_S1x512_S512x256_S1x256_1_0_0_1_n_n.rhsIdx (ix2 0 o) ((contrEquiv1 dot_S1x512_S512x256_S1x256_1_0_0_1_n_n 512 rfl rfl).symm k) = ix2 k o := funext fun a => Fin.ext (by
    match a with
    | ⟨0, _⟩ => exact (rhs_tile_0 _ _).trans hk
    | ⟨1, _⟩ => exact rhs_tile_1 _ _)
  rw [el, er]

/-- The sum over the last axis, at channel c' of the tile: the channel's 1024 positions added up. -/
theorem rowsum_apply (x : FVec Ideal S1x512x1024 .f32) (h : S1x512x1024.Reduces [2] S1x512) (c' : Fin 512) :
    multiReduction (F := Ideal) .add [2] S1x512 x 0x00000000#32 h (.inl rfl) rfl (ix2 0 c')
      = ∑ p : Fin 1024, x (ix3 0 c' p) := by
  refine (Ideal.multiReduction_add_single x 0x00000000#32 h (.inl rfl) rfl (ix2 0 c')).trans ?_
  refine Finset.sum_congr rfl fun p _ => congrArg x ?_
  funext a
  apply Fin.ext
  match a with
  | ⟨0, _⟩ => rfl
  | ⟨1, _⟩ => rfl
  | ⟨2, _⟩ => rfl

/-- A row stored as a one-row block: entry (0, 0, o) is the row's entry (0, o). -/
theorem addunit_apply (v : FVec Ideal S1x256 .f32) (h : S1x256.ShapeCasts S1x1x256) (o : Fin 256) :
    shapeCast S1x1x256 v h (ix3 0 0 o) = v (ix2 0 o) := by
  refine (shapeCast_apply v h (ix3 0 0 o) (ix2 0 o) ?_)
  rw [Shape.rowMajor_val_two, Shape.rowMajor_val_three]
  rfl

/-! ## The three stored values -/

/-- The reset stores zero. -/
theorem pay1_apply (o : Fin 256) : (k0_pay1 (F := Ideal)) (ix2 0 o) = 0 := by
  show shapeCast S1x256 (broadcast S1x256 (Scalar.ofBits .f32 0x00000000#32 : Ideal .f32)) shapeCasts_S1x256_S1x256 (ix2 0 o) = 0
  rw [shapeCast_self]
  exact Ideal.ofBits_zero_f32

/-- The update stores the accumulator plus the tile's contraction of position sums against weights. -/
theorem pay2_apply (x : Vec Ideal S1x512x1024 .f32) (acc : Vec Ideal S1x256 .f32) (w : Vec Ideal S512x256 .f32) (o : Fin 256) :
    k0_pay2 x acc w (ix2 0 o) = acc (ix2 0 o) + ∑ c' : Fin 512, (∑ p : Fin 1024, x (ix3 0 c' p)) * w (ix2 c' o) := by
  show shapeCast S1x256 (addf acc (matmul dot_S1x512_S512x256_S1x256_1_0_0_1_n_n none
      (multiReduction (F := Ideal) .add [2] S1x512 (shapeCast S1x512x1024 x shapeCasts_S1x512x1024_S1x512x1024) 0x00000000#32 reduces_S1x512x1024_S1x512 (.inl rfl) rfl)
      (shapeCast S512x256 w shapeCasts_S512x256_S512x256) (constant (F := Ideal) S1x256 .f32 0x00000000#32))) shapeCasts_S1x256_S1x256 (ix2 0 o) = _
  rw [shapeCast_self, shapeCast_self, shapeCast_self]
  refine (congrArg (acc (ix2 0 o) + ·) (matmul_tile_apply _ _ o)).trans ?_
  refine congrArg (acc (ix2 0 o) + ·) (Finset.sum_congr rfl fun c' _ => ?_)
  exact congrArg (· * w (ix2 c' o)) (rowsum_apply x _ c')

/-- The finish stores max(accumulator + shift, 0), as a one-row block. -/
theorem pay3_apply (acc : Vec Ideal S1x256 .f32) (sh : Vec Ideal S1x256 .f32) (o : Fin 256) :
    k0_pay3 acc sh (ix3 0 0 o) = max (acc (ix2 0 o) + sh (ix2 0 o)) 0 := by
  show shapeCast S1x1x256 (maximumf (addf acc (shapeCast S1x256 sh shapeCasts_S1x256_S1x256)) (broadcast S1x256 (Scalar.ofBits .f32 0x00000000#32 : Ideal .f32))) shapeCasts_S1x256_S1x1x256 (ix3 0 0 o) = _
  rw [shapeCast_self]
  refine (addunit_apply _ _ o).trans ?_
  show max (acc (ix2 0 o) + sh (ix2 0 o)) (Ideal.ofBits .f32 0x00000000#32) = _
  rw [Ideal.ofBits_zero_f32]

end Cert.ReferenceIdeal.Hand

end
-- ==== Proof.RefVal0Pieces.lean ====
/-
  Stage 1's body, case by case, as values: the accumulator after a first tile is the update over zeros; after a
  later tile the update over what the tile before left; the output block after a last tile is the finished row
  (accumulator plus shift, clamped below at zero) of that point's accumulator.  Each is the read-back of the
  case's stores, all of which cover their buffer through the whole-buffer rectangle.
-/
import proofs.«151444_g2000404444116002_pallasbulk_979_2_alg».proof.Proof.RefFrame0
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the stored values of the blocks -/

/-- A first tile leaves in the accumulator the update over the freshly stored zeros. -/
theorem sout_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i) (x0 : Vec F S1x512x1024 .f32) (x1 : Vec F S512x256 .f32) (x2 : Vec F S1x256 .f32) :
    sout0_A_0 c i arg2 harg2 arg3 harg3 arg4 harg4 arg5 harg5 arg6 harg6 hc0 hc1 x0 x1 x2 = k0_pay2 x0 (k0_pay1 (F := F)) x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg6.read_unread, View.ld_unit_zero (S := S1x512x1024) hz3, View.ld_unit_zero (S := S512x256) hz2, View.ld_unit_zero (S := S1x256) hz2]

/-- A middle tile leaves in the accumulator the update over what it found there. -/
theorem sout_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i) (x0 : Vec F S1x512x1024 .f32) (x1 : Vec F S512x256 .f32) (x2 : Vec F S1x256 .f32) (xs0 : Vec F S1x256 .f32) :
    sout0_B_0 c i arg2 harg2 arg3 harg3 arg4 harg4 arg5 harg5 arg6 harg6 hc0 hc1 x0 x1 x2 xs0 = k0_pay2 x0 xs0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S1x512x1024) hz3, View.ld_unit_zero (S := S512x256) hz2, View.ld_unit_zero (S := S1x256) hz2]

/-- A last tile leaves in the accumulator the update over what it found there, -/
theorem sout_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) :
    sout0_C_0 c i arg2 harg2 arg3 harg3 arg4 harg4 arg5 harg5 arg6 harg6 hc0 hc1 x0 x1 x2 xs0 = k0_pay2 x0 xs0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x512x1024) hz3, View.ld_unit_zero (S := S512x256) hz2, View.ld_unit_zero (S := S1x256) hz2]

/-- and in the output block the finished row of that updated accumulator. -/
theorem out_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) :
    out0_C_3 c i arg2 harg2 arg3 harg3 arg4 harg4 arg5 harg5 arg6 harg6 hc0 hc1 x0 x1 x2 xs0 = k0_pay3 (k0_pay2 x0 xs0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readCov_unit_zero (S := S1x256) _ hz2, View.readAt_eq_ld, harg2.read_unread, harg3.read_unread, harg4.read_unread, harg6.read_unread, View.ld_unit_zero (S := S1x512x1024) hz3, View.ld_unit_zero (S := S512x256) hz2, View.ld_unit_zero (S := S1x256) hz2]

/-! ## The same at a grid point, over the point's blocks -/

section Region0
variable (V : (c : Dev nD) → (b : Ref sig .tc) → Buf (Elt F) ((c : Thread nD τ).loc b))

/-- The point's block of x (one batch entry, 512 channels, 1024 positions), of the weights (512 channels by 256), of the shift. -/
abbrev xblk (c : Dev nD) (t : Fin cfg0.N) : Vec F S1x512x1024 .f32 := iblk0 V c 0 t
abbrev wblk (c : Dev nD) (t : Fin cfg0.N) : Vec F S512x256 .f32 := iblk0 V c 1 t
abbrev sblk (c : Dev nD) (t : Fin cfg0.N) : Vec F S1x256 .f32 := iblk0 V c 2 t
/-- The three arrays as the region finds them. -/
abbrev xarr (c : Dev nD) : Vec F S16x2048x1024 .f32 := V c main_v13
abbrev warr (c : Dev nD) : Vec F S2048x256 .f32 := V c main_v12
abbrev sarr (c : Dev nD) : Vec F S1x256 .f32 := V c main_v6

/-- The accumulator after a first tile. -/
theorem accA_eq (c : Dev nD) (t : Fin cfg0.N) (h0 : t.val % 4 = 0) (h1 : ¬t.val % 4 = 3) :
    (outsAt0 V c t.val t.isLt).2 = k0_pay2 (xblk V c t) (k0_pay1 (F := F)) (wblk V c t) := by
  rw [outsAt0_A V c t h0 h1]
  dsimp only
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)

/-- The accumulator after a middle tile, over what the point before left. -/
theorem accB_eq (c : Dev nD) (t : Fin cfg0.N) (h0 : ¬t.val % 4 = 0) (h1 : ¬t.val % 4 = 3) :
    (outsAt0 V c t.val t.isLt).2 = k0_pay2 (xblk V c t) (outsAt0 V c (t.val - 1) (Nat.lt_of_le_of_lt (Nat.sub_le _ _) t.isLt)).2 (wblk V c t) := by
  rw [outsAt0_B V c t h0 h1]
  dsimp only
  exact sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2

/-- The accumulator after a last tile, over what the point before left. -/
theorem accC_eq (c : Dev nD) (t : Fin cfg0.N) (h0 : ¬t.val % 4 = 0) (h1 : t.val % 4 = 3) :
    (outsAt0 V c t.val t.isLt).2 = k0_pay2 (xblk V c t) (outsAt0 V c (t.val - 1) (Nat.lt_of_le_of_lt (Nat.sub_le _ _) t.isLt)).2 (wblk V c t) := by
  rw [outsAt0_C V c t h0 h1]
  dsimp only
  exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2

/-- The output block after a last tile: the finished row of that point's accumulator. -/
theorem outC_eq (c : Dev nD) (t : Fin cfg0.N) (h0 : ¬t.val % 4 = 0) (h1 : t.val % 4 = 3) :
    (outsAt0 V c t.val t.isLt).1 = k0_pay3 (outsAt0 V c t.val t.isLt).2 (sblk V c t) := by
  rw [accC_eq V c t h0 h1, outsAt0_C V c t h0 h1]
  dsimp only
  exact out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2

/-- The contents at a position do not depend on how the position's bound is proved or spelt. -/
theorem outsAt0_congr (c : Dev nD) {n n' : ℕ} (h : n < cfg0.N) (h' : n' < cfg0.N) (e : n = n') :
    outsAt0 V c n h = outsAt0 V c n' h' := by
  subst e; rfl

end Region0

end Cert.ReferenceIdeal.Hand

end
-- ==== Proof.RefVal0Cover.lean ====
/-
  Stage 1's output window, as a set of array entries.

  The pooled array has one row of 256 channels per batch entry; the grid is 16 × 4, row-major, so point `t` belongs to
  batch entry `t / 4` and channel tile `t % 4`.  The output block of point `t` is row `t / 4` of the array, whole:
  entry `(0, 0, o)` of the block is entry `(t / 4, 0, o)` of the array.  The block is written back at the last tile of
  each batch entry only (`t % 4 = 3`), and those sixteen blocks cover the array: entry `(b, 0, o)` lies in the block of
  point `4 b + 3`.
-/
import proofs.«151444_g2000404444116002_pallasbulk_979_2_alg».proof.Proof.RefFrame0
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

/-- The output block's index at point `t`: the batch entry `t / 4` on the first axis, zero on the other two. -/
theorem idx_facts0_3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- Where an entry of point `t`'s output block sits in the array. -/
theorem emb0_3 (t : Fin cfg0.N) (b : Fin 16) (hb : t.val / 4 = b.val) (o : Fin 256) :
    ((cfg0.win 3).blk t).view.emb (ix3 (0 : Fin 1) (0 : Fin 1) o) = (ix3 b (0 : Fin 1) o : S16x1x256.Idx) := by
  obtain ⟨e0, e1, e2⟩ := idx_facts0_3 t
  funext a; apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 256 + 1 * o.val = o.val; omega

/-- An entry of the array is in point `t`'s block iff each coordinate is in the block's range on its axis. -/
theorem mem_blk0_3 (t : Fin cfg0.N) (i : S16x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v14).slice (win0_3.rect t)).set ↔ _
  rw [View.set_slice_whole, Rect.mem_set_unit]
  exact Iff.rfl

/-- Every entry of the pooled array lies in the block of its batch entry's last tile. -/
theorem cover0_3 (i : S16x1x256.Idx) : ∃ t : Fin cfg0.N, (cfg0.win 3).flush t = true ∧ i ∈ ((cfg0.win 3).blk t).view.set := by
  have hN : cfg0.N = 64 := N_0
  have hi0 : (i 0).val < 16 := (i 0).isLt
  have hi1 : (i 1).val < 1 := (i 1).isLt
  have hi2 : (i 2).val < 256 := (i 2).isLt
  let t : Fin cfg0.N := ⟨4 * (i 0).val + 3, by omega⟩
  have ht : t.val = 4 * (i 0).val + 3 := rfl
  refine ⟨t, (flush0_3 t).mpr (by omega), ?_⟩
  obtain ⟨e0, e1, e2⟩ := idx_facts0_3 t
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; omega

section WholeArray
variable {F : FTy → Type} [FloatOps F]
variable (V : (c : Dev nD) → (b : Ref sig .tc) → Buf (Elt F) ((c : Thread nD τ).loc b))

/-- The pooled array after stage 1: if what every last-tile point writes back is its block of one array `G`, the array
    ends holding `G` (the sixteen written blocks cover it). -/
theorem arrAt0_3_eq (c : Dev nD) (G : Buf (Elt F) ((cfg0.win 3).arr.view.loc (c.tc : Thread nD τ)))
    (hG : ∀ t : Fin cfg0.N, t.val % 4 = 3 → (dat0 V c).flushed 3 t = ((cfg0.win 3).blk t).view.read (Elt F) G) :
    (dat0 V c).arrAt 3 cfg0.N = G :=
  (dat0 V c).arrAt_eq_of_cover 3 G (fun t hf => hG t ((flush0_3 t).mp hf)) cover0_3

/-- The same with the written block named: it is the first component of `outsAt0` at the point. -/
theorem arrAt0_3_eq' (c : Dev nD) (G : Buf (Elt F) ((cfg0.win 3).arr.view.loc (c.tc : Thread nD τ)))
    (hG : ∀ t : Fin cfg0.N, t.val % 4 = 3 → (outsAt0 V c t.val t.isLt).1 = ((cfg0.win 3).blk t).view.read (Elt F) G) :
    (dat0 V c).arrAt 3 cfg0.N = G :=
  arrAt0_3_eq V c G (fun t h => (after0_3 V c t).trans (hG t h))

end WholeArray

end Cert.ReferenceIdeal.Hand

end
-- ==== Proof.RefVal0.lean ====
/-
  Stage 1's output array after its run, from any entry contents: row (b, 0, ·) at channel o is the total accumulated over
  the four channel tiles — each tile adds Σ over its 512 channels of (the channel's 1024 positions summed) × (its weight)
  to what the tile before left, the first to zero — plus the shift, clamped below at zero.  By induction along the
  points of one batch entry over the accumulator's contents, then the output block of the last tile read through its
  window, and the blocks of the sixteen last tiles covering the array.
-/
import proofs.«151444_g2000404444116002_pallasbulk_979_2_alg».proof.Proof.RefVal0Pay
import proofs.«151444_g2000404444116002_pallasbulk_979_2_alg».proof.Proof.RefVal0Pieces
import proofs.«151444_g2000404444116002_pallasbulk_979_2_alg».proof.Proof.RefVal0Cover
import proofs.«151444_g2000404444116002_pallasbulk_979_2_alg».proof.Proof.Spec

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

/-! ## The input blocks read through their windows -/

/-- The three input windows' block indices at point t: batch entry t / 4, channel tile t % 4. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = t.val % 4 ∧ win0_1.index t (1 : Fin 2) = 0
    ∧ win0_2.index t (0 : Fin 2) = 0 ∧ win0_2.index t (1 : Fin 2) = 0 :=
  (by decide +kernel : ∀ t : Fin grid0.N, _)

section Region0
variable (V : (c : Dev nD) → (b : Ref sig .tc) → Buf (Elt Ideal) ((c : Thread nD τ).loc b))

/-- Point 4b + k's block of x holds batch entry b, channels 512k …, every position. -/
theorem xblk_apply (c : Dev nD) (t : Fin cfg0.N) (b : Fin 16) (k : Fin 4) (ht : t.val = 4 * b.val + k.val) (c' : Fin 512) (p : Fin 1024) :
    xblk V c t (ix3 0 c' p) = xarr V c (ix3 b (Cert.Pool.chan k c') p) := by
  obtain ⟨e0, e1, e2, -⟩ := idx_facts0 t
  show V c main_v13 (((cfg0.win 0).blk t).view.emb (ix3 0 c' p)) = V c main_v13 (ix3 b (Cert.Pool.chan k c') p)
  refine congrArg (V c main_v13) ?_
  funext a
  apply Fin.ext
  match a with
  | ⟨0, _⟩ => show win0_0.index t (0 : Fin 3) * 1 + 1 * 0 = b.val; omega
  | ⟨1, _⟩ => show win0_0.index t (1 : Fin 3) * 512 + 1 * c'.val = 512 * k.val + c'.val; omega
  | ⟨2, _⟩ => show win0_0.index t (2 : Fin 3) * 1024 + 1 * p.val = p.val; omega

/-- Its block of the weights holds channels 512k …, every output channel. -/
theorem wblk_apply (c : Dev nD) (t : Fin cfg0.N) (b : Fin 16) (k : Fin 4) (ht : t.val = 4 * b.val + k.val) (c' : Fin 512) (o : Fin 256) :
    wblk V c t (ix2 c' o) = warr V c (ix2 (Cert.Pool.chan k c') o) := by
  obtain ⟨-, -, -, e0, e1, -⟩ := idx_facts0 t
  show V c main_v12 (((cfg0.win 1).blk t).view.emb (ix2 c' o)) = V c main_v12 (ix2 (Cert.Pool.chan k c') o)
  refine congrArg (V c main_v12) ?_
  funext a
  apply Fin.ext
  match a with
  | ⟨0, _⟩ => show win0_1.index t (0 : Fin 2) * 512 + 1 * c'.val = 512 * k.val + c'.val; omega
  | ⟨1, _⟩ => show win0_1.index t (1 : Fin 2) * 256 + 1 * o.val = o.val; omega

/-- Its block of the shift is the shift. -/
theorem sblk_apply (c : Dev nD) (t : Fin cfg0.N) (o : Fin 256) :
    sblk V c t (ix2 0 o) = sarr V c (ix2 0 o) := by
  obtain ⟨-, -, -, -, -, e0, e1⟩ := idx_facts0 t
  show V c main_v6 (((cfg0.win 2).blk t).view.emb (ix2 0 o)) = V c main_v6 (ix2 0 o)
  refine congrArg (V c main_v6) ?_
  funext a
  apply Fin.ext
  match a with
  | ⟨0, _⟩ => show win0_2.index t (0 : Fin 2) * 1 + 1 * 0 = 0; omega
  | ⟨1, _⟩ => show win0_2.index t (1 : Fin 2) * 256 + 1 * o.val = o.val; omega

/-- So the contraction a point adds at channel o is its tile's term of the two-stage sum. -/
theorem tile_eq (c : Dev nD) (t : Fin cfg0.N) (b : Fin 16) (k : Fin 4) (ht : t.val = 4 * b.val + k.val) (o : Fin 256) :
    ∑ c' : Fin 512, (∑ p : Fin 1024, xblk V c t (ix3 0 c' p)) * wblk V c t (ix2 c' o)
      = Cert.Pool.tileDot (fun ch => warr V c (ix2 ch o)) (fun ch p => xarr V c (ix3 b ch p)) k := by
  unfold Cert.Pool.tileDot
  refine Finset.sum_congr rfl fun c' _ => ?_
  rw [wblk_apply V c t b k ht c' o]
  exact congrArg (· * warr V c (ix2 (Cert.Pool.chan k c') o)) (Finset.sum_congr rfl fun p _ => xblk_apply V c t b k ht c' p)

/-! ## The accumulator along one batch entry's four points -/

/-- The total after the first n + 1 tiles, nested as the accumulator takes them. -/
def partR (w : Fin 2048 → EReal) (x : Fin 2048 → Fin 1024 → EReal) : ℕ → EReal
  | 0 => 0 + Cert.Pool.tileDot w x 0
  | n + 1 => partR w x n + Cert.Pool.tileDot w x ⟨(n + 1) % 4, Nat.mod_lt _ (by decide)⟩

theorem partR_three (w : Fin 2048 → EReal) (x : Fin 2048 → Fin 1024 → EReal) : partR w x 3 = Cert.Pool.Rform w x := rfl

/-- After point 4b + n the accumulator's entry at channel o is the total after n + 1 tiles of batch entry b. -/
theorem acc_eq (c : Dev nD) (o : Fin 256) (b : Fin 16) : ∀ (n : ℕ) (hn : n < 4) (h : 4 * b.val + n < cfg0.N),
    (outsAt0 V c (4 * b.val + n) h).2 (ix2 0 o)
      = partR (fun ch => warr V c (ix2 ch o)) (fun ch p => xarr V c (ix3 b ch p)) n
  | 0, hn, h => by
    have h0 : (⟨4 * b.val + 0, h⟩ : Fin cfg0.N).val % 4 = 0 := by dsimp only; omega
    have h1 : ¬(⟨4 * b.val + 0, h⟩ : Fin cfg0.N).val % 4 = 3 := by dsimp only; omega
    refine (congrFun (accA_eq V c ⟨4 * b.val + 0, h⟩ h0 h1) (ix2 0 o)).trans ?_
    refine (pay2_apply _ _ _ o).trans ?_
    rw [pay1_apply o]
    exact congrArg (0 + ·) (tile_eq V c ⟨4 * b.val + 0, h⟩ b 0 rfl o)
  | n + 1, hn, h => by
    have hp : 4 * b.val + n < cfg0.N := by omega
    have ih := acc_eq c o b n (by omega) hp
    have h0 : ¬(⟨4 * b.val + (n + 1), h⟩ : Fin cfg0.N).val % 4 = 0 := by dsimp only; omega
    have hacc : (outsAt0 V c (⟨4 * b.val + (n + 1), h⟩ : Fin cfg0.N).val (⟨4 * b.val + (n + 1), h⟩ : Fin cfg0.N).isLt).2
        = k0_pay2 (xblk V c ⟨4 * b.val + (n + 1), h⟩)
            (outsAt0 V c ((⟨4 * b.val + (n + 1), h⟩ : Fin cfg0.N).val - 1) (Nat.lt_of_le_of_lt (Nat.sub_le _ _) (⟨4 * b.val + (n + 1), h⟩ : Fin cfg0.N).isLt)).2
            (wblk V c ⟨4 * b.val + (n + 1), h⟩) := by
      by_cases h3 : (⟨4 * b.val + (n + 1), h⟩ : Fin cfg0.N).val % 4 = 3
      · exact accC_eq V c ⟨4 * b.val + (n + 1), h⟩ h0 h3
      · exact accB_eq V c ⟨4 * b.val + (n + 1), h⟩ h0 h3
    have hprev : (outsAt0 V c ((⟨4 * b.val + (n + 1), h⟩ : Fin cfg0.N).val - 1) (Nat.lt_of_le_of_lt (Nat.sub_le _ _) (⟨4 * b.val + (n + 1), h⟩ : Fin cfg0.N).isLt)).2 (ix2 0 o)
        = partR (fun ch => warr V c (ix2 ch o)) (fun ch p => xarr V c (ix3 b ch p)) n :=
      (congrFun (congrArg Prod.snd (outsAt0_congr V c _ hp (by dsimp only; omega))) (ix2 0 o)).trans ih
    refine (congrFun hacc (ix2 0 o)).trans ?_
    refine (pay2_apply _ _ _ o).trans ?_
    rw [hprev]
    show _ = partR (fun ch => warr V c (ix2 ch o)) (fun ch p => xarr V c (ix3 b ch p)) n
        + Cert.Pool.tileDot (fun ch => warr V c (ix2 ch o)) (fun ch p => xarr V c (ix3 b ch p)) ⟨(n + 1) % 4, Nat.mod_lt _ (by decide)⟩
    exact congrArg (partR (fun ch => warr V c (ix2 ch o)) (fun ch p => xarr V c (ix3 b ch p)) n + ·)
      (tile_eq V c ⟨4 * b.val + (n + 1), h⟩ b ⟨(n + 1) % 4, Nat.mod_lt _ (by decide)⟩ (by dsimp only; omega) o)

/-! ## The output: what a last tile writes back, and the array -/

/-- The pooled array: at (b, ·, o) the four-tile total plus the shift, clamped below at zero. -/
abbrev G0 (c : Dev nD) : Vec Ideal S16x1x256 .f32 := fun j =>
  max (Cert.Pool.Rform (fun ch => warr V c (ix2 ch (j 2))) (fun ch p => xarr V c (ix3 (j 0) ch p)) + sarr V c (ix2 0 (j 2))) 0

/-- Two one-row blocks agree when they agree along the row. -/
theorem blk3_ext (f g : Vec Ideal S1x1x256 .f32) (h : ∀ o : Fin 256, f (ix3 0 0 o) = g (ix3 0 0 o)) : f = g := by
  funext j
  obtain ⟨z0, z1, o, rfl⟩ : ∃ (z0 : Fin 1) (z1 : Fin 1) (o : Fin 256), j = ix3 z0 z1 o := ⟨j 0, j 1, j 2, eq_ix3 j⟩
  obtain rfl : z0 = 0 := Subsingleton.elim _ _
  obtain rfl : z1 = 0 := Subsingleton.elim _ _
  exact h o

/-- What a last tile writes back is its block of the pooled array. -/
theorem flushed0_3_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have h0 : ¬t.val % 4 = 0 := by omega
  have hN : cfg0.N = 64 := N_0
  have hlt : t.val < 64 := hN ▸ t.isLt
  have hb : t.val / 4 < 16 := by omega
  have hq : 4 * (t.val / 4) + 3 < cfg0.N := by omega
  show (cfg0.win 3).cut (grid0.coords t) ((dat0 V c).after 3 t) = _
  rw [after0_3, outC_eq V c t h0 h3]
  refine blk3_ext _ _ fun o => ?_
  show k0_pay3 (outsAt0 V c t.val t.isLt).2 (sblk V c t) (ix3 0 0 o) = G0 V c (((cfg0.win 3).blk t).view.emb (ix3 0 0 o))
  rw [emb0_3 t ⟨t.val / 4, hb⟩ rfl o]
  refine (pay3_apply _ _ o).trans ?_
  rw [sblk_apply V c t o, congrFun (congrArg Prod.snd (outsAt0_congr V c t.isLt hq (by omega))) (ix2 0 o),
    acc_eq V c o ⟨t.val / 4, hb⟩ 3 (by decide) hq, partR_three]

end Region0

/-- Stage 1: entry `(b, 0, o)` of the pooled array is the accumulated total over the four channel tiles of
    (spatial total of channel) × (weight), plus the shift, clamped below at zero. -/
theorem arr0_3 (V : (c : Dev nD) → (b : Ref sig .tc) → Buf (Elt Ideal) ((c : Thread nD τ).loc b)) (c : Dev nD) (b : Fin 16) (o : Fin 256) :
    ((dat0 (F := Ideal) V c).arrAt 3 cfg0.N : S16x1x256.Idx → EReal) (ix3 b 0 o)
      = max (Cert.Pool.Rform (fun ch => (V c main_v12 : S2048x256.Idx → EReal) (ix2 ch o))
              (fun ch p => (V c main_v13 : S16x2048x1024.Idx → EReal) (ix3 b ch p))
            + (V c main_v6 : S1x256.Idx → EReal) (ix2 0 o)) 0 := by
  have e := (dat0 (F := Ideal) V c).arrAt_eq_of_cover 3 (G0 V c) (flushed0_3_eq V c) cover0_3
  exact congrFun e (ix3 b 0 o)

end Cert.ReferenceIdeal.Hand

end
-- ==== Proof.RefVal1.lean ====
/-
  Stage 2's output array after its run, from any entry contents: every one of the 1024 positions of row (b, o) holds the
  one entry (b, o, 0) of the column array the stage reads: the eight stored tiles are the column repeated along the
  lanes, they tile the block, and block b is the whole plane of batch entry b.
-/
import proofs.«151444_g2000404444116002_pallasbulk_979_2_alg».proof.Proof.RefFrame1
import proofs.«151444_g2000404444116002_pallasbulk_979_2_alg».proof.Proof.Spec
import Idealize.ShloMosaic.Lib.Pipeline.Value

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

/-! ## One stored tile, and the eight of them, read at an index -/

/-- Zero offsets on three axes are the constant zero. -/
theorem hz3col : (![0, 0, 0] : Fin 3 → Nat) = fun _ => 0 := funext fun a => by fin_cases a <;> rfl

/-- The lane-repeated column at `(0, r, l)` is the column's entry `(0, r, 0)`. -/
theorem k1_pay1_apply (v0 : Vec Ideal S1x256x1 .f32) (x : S1x256x128.Idx) (r : Fin 256) (hr : r.val = (x 1).val) :
    (k1_pay1 (F := Ideal) v0 : S1x256x128.Idx → EReal) x = v0 (ix3 (0 : Fin 1) r (0 : Fin 1)) := by
  unfold k1_pay1
  refine (broadcastTo_apply _ broadcasts_S1x256x1_S1x256x128 x (ix3 (0 : Fin 1) r (0 : Fin 1)) fun a => ?_).trans ?_
  · match a with
    | ⟨0, _⟩ => rfl
    | ⟨1, _⟩ =>
      show r.val = if S1x256x1.size 1 = 1 then 0 else (x 1).val
      rw [if_neg (by decide)]; exact hr
    | ⟨2, _⟩ => rfl
  · rw [shapeCast_self, shapeCast_self]

/-- A tile stored at lane offset `off 2` of the block, with no offset along the rows, holds at its local index the
    column's entry of the row under it. -/
theorem coltile_eq (x0 : Vec Ideal S1x256x1 .f32) (off : Fin 3 → Nat) (inb : ∀ a, off a + S1x256x128.size a ≤ S1x256x1024.size a)
    (h1 : off 1 = 0) (x : S1x256x128.Idx) :
    (k1_pay1 (F := Ideal) (View.ld x0 r1_0) : S1x256x128.Idx → EReal) x
      = x0 (ix3 (0 : Fin 1) (⟨(((Rect.unit (s := S1x256x1024) off S1x256x128.size inb).emb x) 1).val,
          (((Rect.unit (s := S1x256x1024) off S1x256x128.size inb).emb x) 1).isLt⟩ : Fin 256) (0 : Fin 1)) := by
  refine (k1_pay1_apply (View.ld x0 r1_0) x
    (⟨(((Rect.unit (s := S1x256x1024) off S1x256x128.size inb).emb x) 1).val,
      (((Rect.unit (s := S1x256x1024) off S1x256x128.size inb).emb x) 1).isLt⟩ : Fin 256) ?_).trans ?_
  · show off 1 + 1 * (x 1).val = (x 1).val
    rw [h1]; omega
  · rw [View.ld_unit_zero (S := S1x256x1) hz3col]

/-- The block's staging buffer after the body, at `(0, r, p)`: the column's entry `(0, r, 0)`, whichever of the eight
    tiles covers lane position `p`. -/
theorem out1_1_apply (x0 : Vec Ideal S1x256x1 .f32) (y : S1x256x1024.Idx) (r : Fin 256) (hr : r.val = (y 1).val) :
    (out1_1 (F := Ideal) x0 : S1x256x1024.Idx → EReal) y = x0 (ix3 (0 : Fin 1) r (0 : Fin 1)) := by
  unfold out1_1
  refine (View.canon_apply_of_pieces
    (fun z : S1x256x1024.Idx => x0 (ix3 (0 : Fin 1) (⟨(z 1).val, (z 1).isLt⟩ : Fin 256) (0 : Fin 1))) _ ?_ y
    (cover1_1 (F := Ideal) _ _ _ _ _ _ _ _ y)).trans ?_
  · intro p hp
    simp only [List.mem_cons, List.mem_nil_iff, or_false] at hp
    rcases hp with rfl | rfl | rfl | rfl | rfl | rfl | rfl | rfl
    · exact coltile_eq x0 _ inb_S1x256x1024_S1x256x128_0_0_896 rfl
    · exact coltile_eq x0 _ inb_S1x256x1024_S1x256x128_0_0_768 rfl
    · exact coltile_eq x0 _ inb_S1x256x1024_S1x256x128_0_0_640 rfl
    · exact coltile_eq x0 _ inb_S1x256x1024_S1x256x128_0_0_512 rfl
    · exact coltile_eq x0 _ inb_S1x256x1024_S1x256x128_0_0_384 rfl
    · exact coltile_eq x0 _ inb_S1x256x1024_S1x256x128_0_0_256 rfl
    · exact coltile_eq x0 _ inb_S1x256x1024_S1x256x128_0_0_128 rfl
    · exact coltile_eq x0 _ inb_S1x256x1024_S1x256x128_0_0_0 rfl
  · exact congrArg x0 (by congr 1; exact Fin.ext hr.symm)

/-! ## From the blocks to the array -/

/-- What the output array ends holding: at `(b, o, p)` the column array's entry `(b, o, 0)`. -/
abbrev G1 (a : S16x256x1.Idx → EReal) : S16x256x1024.Idx → EReal :=
  fun i => a (ix3 (⟨(i 0).val, (i 0).isLt⟩ : Fin 16) (⟨(i 1).val, (i 1).isLt⟩ : Fin 256) (0 : Fin 1))

/-- The printed index maps over the grid: block `t` of either window is batch entry `t`, whole along the other axes. -/
theorem idx1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

variable (V : (c : Dev nD) → (b : Ref sig .tc) → Buf (Elt Ideal) ((c : Thread nD τ).loc b))

/-- What point `t` writes back is block `t` of `G1` of the column array as the region finds it. -/
theorem flushed1_eq (c : Dev nD) (t : Fin cfg1.N) :
    (dat1 (F := Ideal) V c).flushed 1 t = ((cfg1.win 1).blk t).view.read (Elt Ideal) (G1 (V c main_v15)) := by
  show (cfg1.win 1).cut (grid1.coords t) ((dat1 (F := Ideal) V c).after 1 t) = _
  rw [after1_1]
  obtain ⟨e0, e1, e2, e3, e4, e5⟩ := idx1 t
  funext j
  refine (out1_1_apply (iblk1 (F := Ideal) V c 0 t) ((cfg1.win 1).xinj (grid1.coords t) j) ⟨(j 1).val, (j 1).isLt⟩ rfl).trans ?_
  show V c main_v15 (((cfg1.win 0).blk t).view.emb (ix3 (0 : Fin 1) (⟨(j 1).val, (j 1).isLt⟩ : Fin 256) (0 : Fin 1)))
    = G1 (V c main_v15) (((cfg1.win 1).blk t).view.emb j)
  refine congrArg (V c main_v15) (funext fun a => Fin.ext ?_)
  have hj0 : (j 0).val < 1 := (j 0).isLt
  match a with
  | ⟨0, _⟩ =>
    show win1_0.index t (0 : Fin 3) * 1 + 1 * 0 = win1_1.index t (0 : Fin 3) * 1 + 1 * (j 0).val
    rw [e0, e3]; omega
  | ⟨1, _⟩ =>
    show win1_0.index t (1 : Fin 3) * 256 + 1 * (j 1).val = win1_1.index t (1 : Fin 3) * 256 + 1 * (j 1).val
    rw [e1, e4]
  | ⟨2, _⟩ =>
    show win1_0.index t (2 : Fin 3) * 1 + 1 * 0 = 0
    rw [e2]

/-- An index of the array is in point `t`'s block iff each coordinate is in the block's range on its axis. -/
theorem mem_blk1 (t : Fin cfg1.N) (i : S16x256x1024.Idx) :
    i ∈ ((cfg1.win 1).blk t).view.set ↔ ∀ a : Fin 3, win1_1.index t a * S1x256x1024.size a ≤ (i a).val
      ∧ (i a).val < win1_1.index t a * S1x256x1024.size a + S1x256x1024.size a := by
  show i ∈ ((View.whole main_v16).slice (win1_1.rect t)).set ↔ _
  rw [View.set_slice_whole, Rect.mem_set_unit]
  exact Iff.rfl

/-- Every index of the array is in the block of the point of its batch entry. -/
theorem cover1 (i : S16x256x1024.Idx) :
    ∃ t : Fin cfg1.N, (cfg1.win 1).flush t = true ∧ i ∈ ((cfg1.win 1).blk t).view.set := by
  have h0 : (i 0).val < 16 := (i 0).isLt
  have h1 : (i 1).val < 256 := (i 1).isLt
  have h2 : (i 2).val < 1024 := (i 2).isLt
  have hN : cfg1.N = 16 := N_1
  obtain ⟨t, ht⟩ : ∃ t : Fin cfg1.N, t.val = (i 0).val := ⟨⟨(i 0).val, by rw [hN]; exact h0⟩, rfl⟩
  refine ⟨t, flush1_1 t, ?_⟩
  rw [mem_blk1]
  obtain ⟨e0, e1, e2, e3, e4, e5⟩ := idx1 t
  intro a
  match a with
  | ⟨0, _⟩ =>
    show win1_1.index t (0 : Fin 3) * 1 ≤ (i 0).val ∧ (i 0).val < win1_1.index t (0 : Fin 3) * 1 + 1
    rw [e3]; exact ⟨by omega, by omega⟩
  | ⟨1, _⟩ =>
    show win1_1.index t (1 : Fin 3) * 256 ≤ (i 1).val ∧ (i 1).val < win1_1.index t (1 : Fin 3) * 256 + 256
    rw [e4]; exact ⟨by omega, by omega⟩
  | ⟨2, _⟩ =>
    show win1_1.index t (2 : Fin 3) * 1024 ≤ (i 2).val ∧ (i 2).val < win1_1.index t (2 : Fin 3) * 1024 + 1024
    rw [e5]; exact ⟨by omega, by omega⟩

/-- The array after the run. -/
theorem final1 (c : Dev nD) : (dat1 (F := Ideal) V c).arrAt 1 cfg1.N = G1 (V c main_v15) :=
  (dat1 (F := Ideal) V c).arrAt_eq_of_cover 1 (G1 (V c main_v15)) (fun t _ => flushed1_eq V c t) cover1

/-- Stage 2: entry `(b, o, p)` of its output array is entry `(b, o, 0)` of the column array it reads. -/
theorem arr1_1 (c : Dev nD) (b : Fin 16) (o : Fin 256) (p : Fin 1024) :
    ((dat1 (F := Ideal) V c).arrAt 1 cfg1.N : S16x256x1024.Idx → EReal) (ix3 b o p)
      = (V c main_v15 : S16x256x1.Idx → EReal) (ix3 b o 0) := by
  rw [final1 V c]

end Cert.ReferenceIdeal.Hand

end
-- ==== Proof.RefVal.lean ====
/-
  What the two-stage program returns: the last boundary's contents of the result buffer, as the specification's
  two-stage array of the launch contents of the arguments.  The host lines before stage 1 are read at an index (the
  transposed folded weight, the shift row, the flattened x), stage 1's rows become columns under the middle reshape,
  stage 2 repeats each column entry over the positions, and the last reshape folds the positions into the plane.
-/
import proofs.«151444_g2000404444116002_pallasbulk_979_2_alg».proof.Proof.RefLaunch
import proofs.«151444_g2000404444116002_pallasbulk_979_2_alg».proof.Proof.RefVal0
import proofs.«151444_g2000404444116002_pallasbulk_979_2_alg».proof.Proof.RefVal1
import proofs.«151444_g2000404444116002_pallasbulk_979_2_alg».proof.Proof.Spec
import Idealize.ShloMosaic.Lib.Pipeline.Value
import Idealize.ShloMosaic.Lib.StableHlo.Run

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Idealize.ShloMosaic.StableHlo
open Cert.ReferenceIdeal Cert.ReferenceIdeal.Gen

/-! ## The host lines, read at an index -/

variable (m : (ℓ : Loc nD τ sig) → Buf (Elt Ideal) ℓ) (ρ : Dev nD → PrngReg)

abbrev scl (c : Dev nD) : FVec Ideal S256 .f32 :=
  Cert.Pool.scaleV bcast_S_S256 (m ((c.tc : Thread nD τ).loc main_arg2)) (m ((c.tc : Thread nD τ).loc main_arg5))
abbrev shf (c : Dev nD) : FVec Ideal S256 .f32 :=
  Cert.Pool.shiftV (m ((c.tc : Thread nD τ).loc main_arg3)) (m ((c.tc : Thread nD τ).loc main_arg4)) (scl m c)

/-- The folded weight array before its transposition, as the host lines compute it from the launch contents. -/
theorem B1_v12_eq (c : Dev nD) :
    (VB1 (F := Ideal) m ρ c main_v12 : S2048x256.Idx → EReal)
      = transpose S2048x256 [1, 0]
          (mulf (mulf (m ((c.tc : Thread nD τ).loc main_arg1) : S256x2048.Idx → EReal)
              (broadcastInDim S256x2048 ![0, 1] bcast_S256x1_S256x2048_0_1
                (broadcastInDim S256x1 ![0] bcast_S256_S256x1_0 (scl m c))))
            (broadcastInDim S256x2048 ![] bcast_S_S256x2048 (constant (F := Ideal) S_ .f32 0x3A800000#32)))
          transposes_S256x2048_S2048x256_1_0 := by
  show StableHlo.after hostOps0 (B0 (F := Ideal) m ρ c) (Proc.devRef .tc main_v12) = _
  after_results
  rfl

/-- The scale, repeated along the input channels, at `(o, ch)` is the scale of output channel `o`. -/
theorem scale_bcast_apply (s : FVec Ideal S256 .f32) (o : Fin 256) (ch : Fin 2048) :
    (broadcastInDim S256x2048 ![0, 1] bcast_S256x1_S256x2048_0_1
        (broadcastInDim S256x1 ![0] bcast_S256_S256x1_0 s) : S256x2048.Idx → EReal) (ix2 o ch) = s (ix1 o) := by
  refine (broadcastInDim_apply _ _ _ (ix2 o ch) (ix2 o (0 : Fin 1)) fun a => ?_).trans ?_
  · match a with
    | ⟨0, _⟩ => rfl
    | ⟨1, _⟩ => rfl
  · refine broadcastInDim_apply _ _ _ (ix2 o (0 : Fin 1)) (ix1 o) fun a => ?_
    match a with
    | ⟨0, _⟩ => rfl

/-- The transposed folded weight stage 1 reads. -/
theorem B1_v12 (c : Dev nD) (ch : Fin 2048) (o : Fin 256) :
    (VB1 (F := Ideal) m ρ c main_v12 : S2048x256.Idx → EReal) (ix2 ch o)
      = Cert.Pool.wR (m ((c.tc : Thread nD τ).loc main_arg1)) (scl m c) o ch := by
  refine (congrFun (B1_v12_eq m ρ c) (ix2 ch o)).trans ?_
  refine (transpose_apply _ _ _ (ix2 ch o) (ix2 o ch) fun b => ?_).trans ?_
  · match b with
    | ⟨0, _⟩ => rfl
    | ⟨1, _⟩ => rfl
  · rw [mulf_apply, mulf_apply, scale_bcast_apply]
    rfl

/-- The shift row stage 1 reads. -/
theorem B1_v6 (c : Dev nD) (o : Fin 256) :
    (VB1 (F := Ideal) m ρ c main_v6 : S1x256.Idx → EReal) (ix2 0 o) = shf m c (ix1 o) := by
  have e : (VB1 (F := Ideal) m ρ c main_v6 : S1x256.Idx → EReal) = shapeCast S1x256 (shf m c) shapeCasts_S256_S1x256 := by
    show StableHlo.after hostOps0 (B0 (F := Ideal) m ρ c) (Proc.devRef .tc main_v6) = _
    after_results
    rfl
  refine (congrFun e (ix2 0 o)).trans ?_
  refine shapeCast_apply _ _ (ix2 (0 : Fin 1) o) (ix1 o) ?_
  rw [Shape.rowMajor_val_one, Shape.rowMajor_val_two]
  show o.val = 0 * 256 + o.val
  omega

/-- The flattened `x` stage 1 reads. -/
theorem B1_v13 (c : Dev nD) (b : Fin 16) (ch : Fin 2048) (p : Fin 1024) :
    (VB1 (F := Ideal) m ρ c main_v13 : S16x2048x1024.Idx → EReal) (ix3 b ch p)
      = Cert.Pool.xf (m ((c.tc : Thread nD τ).loc main_arg0)) b ch p := by
  have e : (VB1 (F := Ideal) m ρ c main_v13 : S16x2048x1024.Idx → EReal)
      = shapeCast S16x2048x1024 (m ((c.tc : Thread nD τ).loc main_arg0) : S16x2048x32x32.Idx → EReal) shapeCasts_S16x2048x32x32_S16x2048x1024 := by
    show StableHlo.after hostOps0 (B0 (F := Ideal) m ρ c) (Proc.devRef .tc main_v13) = _
    after_results
    rfl
  refine (congrFun e (ix3 b ch p)).trans ?_
  unfold Cert.Pool.xf
  refine shapeCast_apply _ _ (ix3 b ch p) (ix4 b ch (Cert.Pool.posH p) (Cert.Pool.posW p)) ?_
  rw [Shape.rowMajor_val_four, Shape.rowMajor_val_three]
  show ((b.val * 2048 + ch.val) * 32 + p.val / 32) * 32 + p.val % 32 = (b.val * 2048 + ch.val) * 1024 + p.val
  omega

/-- The pooled rows as columns: the reshape (16, 1, 256) → (16, 256, 1) keeps the row-major order. -/
theorem B3_v15 (c : Dev nD) (b : Fin 16) (o : Fin 256) :
    (VB3 (F := Ideal) m ρ c main_v15 : S16x256x1.Idx → EReal) (ix3 b o 0)
      = ((dat0 (F := Ideal) (VB1 m ρ) c).arrAt 3 cfg0.N : S16x1x256.Idx → EReal) (ix3 b 0 o) := by
  have e : (VB3 (F := Ideal) m ρ c main_v15 : S16x256x1.Idx → EReal)
      = shapeCast S16x256x1 (B2 (F := Ideal) m ρ c (Proc.devRef .tc main_v14) : S16x1x256.Idx → EReal) shapeCasts_S16x1x256_S16x256x1 := by
    show StableHlo.after hostOps1 (B2 (F := Ideal) m ρ c) (Proc.devRef .tc main_v15) = _
    after_results
    rfl
  have e2 : (B2 (F := Ideal) m ρ c (Proc.devRef .tc main_v14) : S16x1x256.Idx → EReal)
      = (dat0 (F := Ideal) (VB1 m ρ) c).arrAt 3 cfg0.N := B2_arr m ρ c 3
  refine (congrFun e (ix3 b o 0)).trans ?_
  rw [e2]
  refine shapeCast_apply _ _ (ix3 b o (0 : Fin 1)) (ix3 b (0 : Fin 1) o) ?_
  rw [Shape.rowMajor_val_three, Shape.rowMajor_val_three]
  show (b.val * 1 + 0) * 256 + o.val = (b.val * 256 + o.val) * 1 + 0
  omega

/-- The result: the reshape (16, 256, 1024) → (16, 256, 32, 32) of stage 2's output array. -/
theorem B5_v17 (c : Dev nD) (b : Fin 16) (o : Fin 256) (h w : Fin 32) :
    (B5 (F := Ideal) m ρ c (Proc.devRef .tc main_v17) : S16x256x32x32.Idx → EReal) (ix4 b o h w)
      = ((dat1 (F := Ideal) (VB3 m ρ) c).arrAt 1 cfg1.N : S16x256x1024.Idx → EReal) (ix3 b o ⟨32 * h.val + w.val, by omega⟩) := by
  have e : (B5 (F := Ideal) m ρ c (Proc.devRef .tc main_v17) : S16x256x32x32.Idx → EReal)
      = shapeCast S16x256x32x32 (B4 (F := Ideal) m ρ c (Proc.devRef .tc main_v16) : S16x256x1024.Idx → EReal) shapeCasts_S16x256x1024_S16x256x32x32 := by
    show StableHlo.after hostOps2 (B4 (F := Ideal) m ρ c) (Proc.devRef .tc main_v17) = _
    after_results
    rfl
  have e2 : (B4 (F := Ideal) m ρ c (Proc.devRef .tc main_v16) : S16x256x1024.Idx → EReal)
      = (dat1 (F := Ideal) (VB3 m ρ) c).arrAt 1 cfg1.N := B4_arr m ρ c 1
  refine (congrFun e (ix4 b o h w)).trans ?_
  rw [e2]
  refine shapeCast_apply _ _ (ix4 b o h w) (ix3 b o (⟨32 * h.val + w.val, by omega⟩ : Fin 1024)) ?_
  rw [Shape.rowMajor_val_three, Shape.rowMajor_val_four]
  show (b.val * 256 + o.val) * 1024 + (32 * h.val + w.val) = ((b.val * 256 + o.val) * 32 + h.val) * 32 + w.val
  omega

/-- The result buffer at the last boundary is the specification's two-stage array of the launch contents. -/
theorem B5_main_v17 (c : Dev nD) :
    (B5 (F := Ideal) m ρ c (Proc.devRef .tc main_v17) : S16x256x32x32.Idx → EReal)
      = Cert.Pool.ROut (m ((c.tc : Thread nD τ).loc main_arg0)) (m ((c.tc : Thread nD τ).loc main_arg1)) (scl m c) (shf m c) := by
  funext j
  obtain ⟨b, o, h, w, rfl⟩ : ∃ (b : Fin 16) (o : Fin 256) (h w : Fin 32), j = ix4 b o h w := ⟨j 0, j 1, j 2, j 3, eq_ix4 j⟩
  have hw : (fun ch : Fin 2048 => (VB1 (F := Ideal) m ρ c main_v12 : S2048x256.Idx → EReal) (ix2 ch o))
      = Cert.Pool.wR (m ((c.tc : Thread nD τ).loc main_arg1)) (scl m c) o := funext fun ch => B1_v12 m ρ c ch o
  have hx : (fun (ch : Fin 2048) (p : Fin 1024) => (VB1 (F := Ideal) m ρ c main_v13 : S16x2048x1024.Idx → EReal) (ix3 b ch p))
      = Cert.Pool.xf (m ((c.tc : Thread nD τ).loc main_arg0)) b := funext fun ch => funext fun p => B1_v13 m ρ c b ch p
  refine (B5_v17 m ρ c b o h w).trans ?_
  refine (arr1_1 (VB3 (F := Ideal) m ρ) c b o _).trans ?_
  refine (B3_v15 m ρ c b o).trans ?_
  refine (arr0_3 (VB1 (F := Ideal) m ρ) c b o).trans ?_
  rw [hw, hx, B1_v6 m ρ c o]
  rfl

end Cert.ReferenceIdeal.Hand

end
-- ==== Proof.lean ====
/-
  The certificate of the fused pooling kernel against its two-stage reference, over the extended reals.

  Both programs compute, per batch entry b and output channel o,  max (S + shift o) 0  broadcast over the 32 × 32 plane,
  S = ∑ c, W o c · ∑ p, x b c p,  W = conv_w · γ/√(σ² + ε) · 2⁻¹⁰,  shift = β − μ · γ/√(σ² + ε)  (Proof/Spec.lean).
  The fused kernel sums lane-wise products of lane-folded channels (`Pool.Kform`, its run in Proof/KRun.lean); the
  reference accumulates four channel tiles of position-summed channels times weights in a scratch buffer, then repeats
  the finished value over the positions in a second kernel (`Pool.Rform`, its run in Proof/RefLaunch.lean, its value in
  Proof/RefVal.lean).  The two sums are rearrangements of one finite sum of real products; on the extended reals the
  rearrangement needs every weight and every entry of x to be a real number (a product with an infinite weight does not
  distribute over a sum of mixed signs).  The entries are real by the precondition (Proof/PreFacts.lean); the weight is
  real because σ² ≥ 0 keeps σ² + ε positive, so neither the square root nor the quotient leaves the reals: that is the
  one use of the precondition's last conjunct, and at σ² = −ε, where the quotient is infinite, the two programs differ.
  The idealization rewrote nothing (`preserves` is `True`); the frames of the two printed forms of the fused kernel are
  the generated ones; the reference's frame is its run with the result dropped.
-/
import proofs.«151444_g2000404444116002_pallasbulk_979_2_alg».proof.Defs
import proofs.«151444_g2000404444116002_pallasbulk_979_2_alg».proof.Proof.Gen.Kernel
import proofs.«151444_g2000404444116002_pallasbulk_979_2_alg».proof.Proof.Gen.Kernel.Skeleton
import proofs.«151444_g2000404444116002_pallasbulk_979_2_alg».proof.Proof.Gen.Kernel.Launch
import proofs.«151444_g2000404444116002_pallasbulk_979_2_alg».proof.Proof.Gen.Kernel.Points
import proofs.«151444_g2000404444116002_pallasbulk_979_2_alg».proof.Proof.Gen.Kernel.Frame
import proofs.«151444_g2000404444116002_pallasbulk_979_2_alg».proof.Proof.Gen.KernelIdeal
import proofs.«151444_g2000404444116002_pallasbulk_979_2_alg».proof.Proof.Gen.KernelIdeal.Skeleton
import proofs.«151444_g2000404444116002_pallasbulk_979_2_alg».proof.Proof.Gen.KernelIdeal.Launch
import proofs.«151444_g2000404444116002_pallasbulk_979_2_alg».proof.Proof.Gen.KernelIdeal.Points
import proofs.«151444_g2000404444116002_pallasbulk_979_2_alg».proof.Proof.Gen.KernelIdeal.Frame
import proofs.«151444_g2000404444116002_pallasbulk_979_2_alg».proof.Proof.Gen.ReferenceIdeal
import proofs.«151444_g2000404444116002_pallasbulk_979_2_alg».proof.Proof.Gen.ReferenceIdeal.Skeleton
import proofs.«151444_g2000404444116002_pallasbulk_979_2_alg».proof.Proof.Gen.ReferenceIdeal.Launch
import proofs.«151444_g2000404444116002_pallasbulk_979_2_alg».proof.Proof.Gen.ReferenceIdeal.Regions
import proofs.«151444_g2000404444116002_pallasbulk_979_2_alg».proof.Proof.Gen.ReferenceIdeal.Points
import proofs.«151444_g2000404444116002_pallasbulk_979_2_alg».proof.Proof.Gen.Pre_finite_inputs
import proofs.«151444_g2000404444116002_pallasbulk_979_2_alg».proof.Proof.Spec
import proofs.«151444_g2000404444116002_pallasbulk_979_2_alg».proof.Proof.PreFacts
import proofs.«151444_g2000404444116002_pallasbulk_979_2_alg».proof.Proof.KRun
import proofs.«151444_g2000404444116002_pallasbulk_979_2_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run names every unscoped buffer at the last boundary, and no host line or region
    writes an argument. -/
theorem frame_ri : Cert.frame_ReferenceIdeal := fun m ρ _ =>
  (θ_run Cert.ReferenceIdeal.defs _ _).mono (fun _ h c =>
    ⟨(h c _ (Cert.ReferenceIdeal.Hand.mem_uc Cert.ReferenceIdeal.main_arg0 (by decide))).trans (Cert.ReferenceIdeal.Hand.B5_main_arg0 m ρ c),
      (h c _ (Cert.ReferenceIdeal.Hand.mem_uc Cert.ReferenceIdeal.main_arg1 (by decide))).trans (Cert.ReferenceIdeal.Hand.B5_main_arg1 m ρ c),
      (h c _ (Cert.ReferenceIdeal.Hand.mem_uc Cert.ReferenceIdeal.main_arg2 (by decide))).trans (Cert.ReferenceIdeal.Hand.B5_main_arg2 m ρ c),
      (h c _ (Cert.ReferenceIdeal.Hand.mem_uc Cert.ReferenceIdeal.main_arg3 (by decide))).trans (Cert.ReferenceIdeal.Hand.B5_main_arg3 m ρ c),
      (h c _ (Cert.ReferenceIdeal.Hand.mem_uc Cert.ReferenceIdeal.main_arg4 (by decide))).trans (Cert.ReferenceIdeal.Hand.B5_main_arg4 m ρ c),
      (h c _ (Cert.ReferenceIdeal.Hand.mem_uc Cert.ReferenceIdeal.main_arg5 (by decide))).trans (Cert.ReferenceIdeal.Hand.B5_main_arg5 m ρ c)⟩)
    (Cert.ReferenceIdeal.Hand.run_all (F := Ideal) m ρ)

/-- From memories agreeing on the arguments both programs end with the fused kernel's array: the reference's array is
    the two-stage form of the same arguments, equal to the fused form on real data. -/
theorem algebraic : Cert.algebraic_KernelIdeal_ReferenceIdeal := by
  intro m ρ m' ρ' hpre hagree
  refine ⟨fun c => Cert.KernelIdeal.Hand.outK m c, Cert.KernelIdeal.Hand.run_val m ρ, ?_⟩
  refine (θ_run Cert.ReferenceIdeal.defs _ _).mono (fun _ h c => ⟨?_,
      (h c _ (Cert.ReferenceIdeal.Hand.mem_uc Cert.ReferenceIdeal.main_arg0 (by decide))).trans (Cert.ReferenceIdeal.Hand.B5_main_arg0 m' ρ' c),
      (h c _ (Cert.ReferenceIdeal.Hand.mem_uc Cert.ReferenceIdeal.main_arg1 (by decide))).trans (Cert.ReferenceIdeal.Hand.B5_main_arg1 m' ρ' c),
      (h c _ (Cert.ReferenceIdeal.Hand.mem_uc Cert.ReferenceIdeal.main_arg2 (by decide))).trans (Cert.ReferenceIdeal.Hand.B5_main_arg2 m' ρ' c),
      (h c _ (Cert.ReferenceIdeal.Hand.mem_uc Cert.ReferenceIdeal.main_arg3 (by decide))).trans (Cert.ReferenceIdeal.Hand.B5_main_arg3 m' ρ' c),
      (h c _ (Cert.ReferenceIdeal.Hand.mem_uc Cert.ReferenceIdeal.main_arg4 (by decide))).trans (Cert.ReferenceIdeal.Hand.B5_main_arg4 m' ρ' c),
      (h c _ (Cert.ReferenceIdeal.Hand.mem_uc Cert.ReferenceIdeal.main_arg5 (by decide))).trans (Cert.ReferenceIdeal.Hand.B5_main_arg5 m' ρ' c)⟩)
    (Cert.ReferenceIdeal.Hand.run_all (F := Ideal) m' ρ')
  obtain ⟨hX, hW, hγ, hσ⟩ := Cert.Pool.real_of_pre _ _ _ _ _ _ (hpre c)
  refine (h c _ (Cert.ReferenceIdeal.Hand.mem_uc Cert.ReferenceIdeal.main_v17 (by decide))).trans ?_
  refine (Cert.ReferenceIdeal.Hand.B5_main_v17 m' ρ' c).trans ?_
  unfold Cert.ReferenceIdeal.Hand.shf Cert.ReferenceIdeal.Hand.scl
  rw [(hagree c).1, (hagree c).2.1, (hagree c).2.2.1, (hagree c).2.2.2.1, (hagree c).2.2.2.2.1, (hagree c).2.2.2.2.2]
  show _ = Cert.KernelIdeal.Hand.outK m c
  unfold Cert.KernelIdeal.Hand.outK Cert.KernelIdeal.Hand.shf Cert.KernelIdeal.Hand.scl
  exact (Cert.Pool.KOut_eq_ROut _ _ _ _ hX hW (Cert.Pool.scaleV_real _ _ _ hγ hσ)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
